-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S8192x1024 : Shape := ⟨2, ![8192, 1024]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S8192 : Shape := ⟨1, ![8192]⟩

abbrev nBuf : Space → Nat
  | .hbm => 44
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S8192x1024, .f32⟩
  | .hbm, ⟨23, _⟩ => ⟨S8192x1024, .bf16⟩
  | .hbm, ⟨24, _⟩ => ⟨S8192x1, .f32⟩
  | .hbm, ⟨25, _⟩ => ⟨S8192, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  concatenates_S4096x1024_S4096x1024_S8192x1024_d0 : Shape.Concatenates [S4096x1024, S4096x1024] S8192x1024 0
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  shapeCasts_S8192x1_S8192 : S8192x1.ShapeCasts S8192
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v11) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S8192x1024 : Shape := ⟨2, ![8192, 1024]⟩
abbrev S1024x8192 : Shape := ⟨2, ![1024, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S8192x1024, .f32⟩
  | .hbm, ⟨23, _⟩ => ⟨S1024x8192, .f32⟩
  | .hbm, ⟨24, _⟩ => ⟨S8192x8192, .f32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .f32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S4096, .f32⟩
  | .hbm, ⟨71, _⟩ => ⟨S8192, .f32⟩
  | .hbm, ⟨72, _⟩ => ⟨S8192x8192, .i32⟩
  | .hbm, ⟨73, _⟩ => ⟨S8192x8192, .i32⟩
  | .hbm, ⟨74, _⟩ => ⟨S_, .i32⟩
  | .hbm, ⟨75, _⟩ => ⟨S8192x8192, .i32⟩
  | .hbm, ⟨76, _⟩ => ⟨S8192x8192, .i32⟩
  | .hbm, ⟨77, _⟩ => ⟨S8192x8192, .i1⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S_, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call2_v0 : Ref sig .tc := ⟨.hbm, 25, rfl⟩
abbrev main_call2_v1 : Ref sig .tc := ⟨.hbm, 26, rfl⟩
abbrev main_call2_c : Ref sig .tc := ⟨.hbm, 27, rfl⟩
abbrev main_call2_v2 : Ref sig .tc := ⟨.hbm, 28, rfl⟩
abbrev main_call2_v3 : Ref sig .tc := ⟨.hbm, 29, rfl⟩
abbrev main_call2_c_0 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c_2 : Ref sig .tc := ⟨.hbm, 37, rfl⟩
abbrev main_call2_v9 : Ref sig .tc := ⟨.hbm, 38, rfl⟩
abbrev main_call2_v10 : Ref sig .tc := ⟨.hbm, 39, rfl⟩
abbrev main_call2_c_3 : Ref sig .tc := ⟨.hbm, 40, rfl⟩
abbrev main_call2_v11 : Ref sig .tc := ⟨.hbm, 41, rfl⟩
abbrev main_call2_v12 : Ref sig .tc := ⟨.hbm, 42, rfl⟩
abbrev main_call2_v13 : Ref sig .tc := ⟨.hbm, 43, rfl⟩
abbrev main_call2_v14 : Ref sig .tc := ⟨.hbm, 44, rfl⟩
abbrev main_call2_v15 : Ref sig .tc := ⟨.hbm, 45, rfl⟩
abbrev main_call2_v16 : Ref sig .tc := ⟨.hbm, 46, rfl⟩
abbrev main_v13 : Ref sig .tc := ⟨.hbm, 47, rfl⟩
abbrev main_call3_v0 : Ref sig .tc := ⟨.hbm, 48, rfl⟩
abbrev main_call3_v1 : Ref sig .tc := ⟨.hbm, 49, rfl⟩
abbrev main_call3_c : Ref sig .tc := ⟨.hbm, 50, rfl⟩
abbrev main_call3_v2 : Ref sig .tc := ⟨.hbm, 51, rfl⟩
abbrev main_call3_v3 : Ref sig .tc := ⟨.hbm, 52, rfl⟩
abbrev main_call3_c_0 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_c_2 : Ref sig .tc := ⟨.hbm, 60, rfl⟩
abbrev main_call3_v9 : Ref sig .tc := ⟨.hbm, 61, rfl⟩
abbrev main_call3_v10 : Ref sig .tc := ⟨.hbm, 62, rfl⟩
abbrev main_call3_c_3 : Ref sig .tc := ⟨.hbm, 63, rfl⟩
abbrev main_call3_v11 : Ref sig .tc := ⟨.hbm, 64, rfl⟩
abbrev main_call3_v12 : Ref sig .tc := ⟨.hbm, 65, rfl⟩
abbrev main_call3_v13 : Ref sig .tc := ⟨.hbm, 66, rfl⟩
abbrev main_call3_v14 : Ref sig .tc := ⟨.hbm, 67, rfl⟩
abbrev main_call3_v15 : Ref sig .tc := ⟨.hbm, 68, rfl⟩
abbrev main_call3_v16 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_c : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_cst_1 : Ref sig .tc := ⟨.hbm, 79, rfl⟩
abbrev main_v22 : Ref sig .tc := ⟨.hbm, 80, rfl⟩
abbrev main_v23 : Ref sig .tc := ⟨.hbm, 81, rfl⟩
abbrev main_cst_2 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_cst_3 : Ref sig .tc := ⟨.hbm, 87, rfl⟩
abbrev main_v28 : Ref sig .tc := ⟨.hbm, 88, rfl⟩
abbrev main_cst_4 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_cst_5 : Ref sig .tc := ⟨.hbm, 95, rfl⟩
abbrev main_v34 : Ref sig .tc := ⟨.hbm, 96, rfl⟩
abbrev main_cst_6 : Ref sig .tc := ⟨.hbm, 97, rfl⟩
abbrev main_v35 : Ref sig .tc := ⟨.hbm, 98, rfl⟩
abbrev main_cst_7 : Ref sig .tc := ⟨.hbm, 99, rfl⟩
abbrev main_v36 : Ref sig .tc := ⟨.hbm, 100, rfl⟩
abbrev main_cst_8 : Ref sig .tc := ⟨.hbm, 101, rfl⟩
abbrev main_v37 : Ref sig .tc := ⟨.hbm, 102, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  concatenates_S4096x1024_S4096x1024_S8192x1024_d0 : Shape.Concatenates [S4096x1024, S4096x1024] S8192x1024 0
  transposes_S8192x1024_S1024x8192_1_0 : S8192x1024.Transposes [1, 0] S1024x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x1024_S1024x8192_S8192x8192_1_0_0_1_n_n_wf : DotDims.WF S8192x1024 S1024x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.K.Runs.lean ====
/-
  The denominators' kernel, one grid point at a time: what the runs of its three control cases share.

  The grid is 8 x 8, point t = 8 i + j standing for row block i and column block j of the 8192 x 8192 similarity
  matrix. Both input windows read ONE array, the normalized rows in bf16: window 0 its row block i (fetched when j = 0),
  window 1 its row block j (fetched at every point). The scratch column is cleared when j = 0, receives the masked row
  sums of exp(2 <q_p, k_q>) at every point, and is copied to the output block i when j = 7; at the other points the output
  window is idle and is not written back.
-/
import proofs.«153312_j70085276336663_1_alg».proof.Proof.Gen.Kernel.Launch
import proofs.«153312_j70085276336663_1_alg».proof.Proof.Gen.Kernel.Skeleton
import proofs.«153312_j70085276336663_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region: the two row normalizations, the concatenation and the change of format. -/
abbrev pre : List (List (HloOp τ sig (Elt F))) := [hostOps0, hostOps0_1, hostOps0_2, hostOps0_3]

/-- Core `c`'s buffer contents when the region is entered. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, and the lines after it: it reduces to the region continued by
    the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    ⟨hostOps0_sub, hostOps0_1_sub, hostOps0_2_sub, hostOps0_3_sub⟩
    ⟨hostOps0_fresh, hostOps0_1_fresh, hostOps0_2_fresh, hostOps0_3_fresh⟩ main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (when it is not
    fetched its index has not moved), for any proof data whose array is the region-entry contents and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch (clear the scratch column) is taken when the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The last branch (copy the scratch column out) is taken when the column-block coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the column block is not the last the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging memrefs and the scratch -/

/-- One staging buffer of the output window, through which its contents are stated. -/
abbrev VO0_2 : View sig .tc .vmem S1024x1 .f32 := (Memref.whole cc0_stg2_0 : Memref sig .tc .vmem S1024x1 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The scratch column the kernel carries between points. -/
abbrev scM0_0 : Memref sig .tc .vmem S1024x1 .f32 := Memref.whole cc0_scratch0
abbrev VS0_0 : View sig .tc .vmem S1024x1 .f32 := scM0_0.view

/-- The region's class invariant with the scratch column as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frame

end
-- ==== Proof.K.RunA.lean ====
/-
  The body's run where the column block is the first (j = 0): the scratch column is cleared, then receives this block's
  masked row sums; the output window is not touched.
-/
import proofs.«153312_j70085276336663_1_alg».proof.Proof.K.Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the stores leave in the scratch column when the first branch is taken and the last is not, with the proof
    that on whole staging memrefs (the inputs at their blocks, the idle output handed back untouched, the scratch at
    anything) the body runs to the continuation holding the scratch with those pieces written. -/
noncomputable def kernelRun0_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x1024 .bf16) (x1 : Vec F S1024x1024 .bf16) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Frame

end
-- ==== Proof.K.RunB.lean ====
/-
  The body's run where the column block is neither the first nor the last (0 < j < 7): the scratch column, found at
  what the point before left, receives this block's masked row sums; the output window is not touched.
-/
import proofs.«153312_j70085276336663_1_alg».proof.Proof.K.RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the stores leave in the scratch column when neither branch is taken, with the proof that on whole staging
    memrefs (the inputs at their blocks, the idle output handed back untouched, the scratch at `xs0`) the body runs to
    the continuation holding the scratch with those pieces written. -/
noncomputable def kernelRun0_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x1024 .bf16) (x1 : Vec F S1024x1024 .bf16) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Frame

end
-- ==== Proof.K.RunC.lean ====
/-
  The body's run where the column block is the last (j = 7): the scratch column receives this block's masked row sums
  and is then copied whole into the output block.
-/
import proofs.«153312_j70085276336663_1_alg».proof.Proof.K.RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the stores leave in the output block and in the scratch column when the last branch is taken, with the
    proof that on whole staging memrefs (the inputs at their blocks, the output at anything, the scratch at `xs0`) the
    body runs to the continuation holding both with those pieces written. -/
noncomputable def kernelRun0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x1024 .bf16) (x1 : Vec F S1024x1024 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.K.Launch.lean ====
/-
  The launch of the one region and the host lines around it, for a kernel whose two input windows read ONE array.

  The array behind both input windows is held whole when the region is entered; it is dealt to the two windows in halves
  (each window only reads it), the output array goes to its window whole, and at the region's exit the halves are joined
  again so that the lines after the region run within every unscoped buffer.
-/
import proofs.«153312_j70085276336663_1_alg».proof.Proof.K.Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the lines after the region find in the output array: what the region's write-backs made of it (the only window
    on that array is the output window). -/
theorem withArrays_out (dats : (p : Fin 1) → (c : Dev nD) → Dat τ (Elt F) Unit ℕ (UR sig nD τ) ℕ (cfgs p) c) (c : Dev nD) (Vx : Valuation τ sig (Elt F)) :
    Pipeline.withArrays spec0 c Vx (fun w => (dats 0 c).arrAt w cfg0.N) (Proc.devRef .tc main_v12) = (dats 0 c).arrAt 2 cfg0.N := by
  unfold Pipeline.withArrays
  have h : ∃ w', Proc.devRef .tc (Pipeline.arrRef spec0 w') = Proc.devRef (τ := τ) .tc main_v12 := ⟨2, rfl⟩
  rw [dif_pos h]
  suffices ∀ (w' : Fin 3) (e : Proc.devRef .tc (Pipeline.arrRef spec0 w') = Proc.devRef (τ := τ) .tc main_v12),
      cast (congrArg (fun b' : DevRef τ sig => b'.ty.Contents (Elt F)) e) ((dats 0 c).arrAt w' cfg0.N) = (dats 0 c).arrAt 2 cfg0.N from
    this _ h.choose_spec
  intro w' e
  -- the output window is the only one on this array
  have hw : w' = 2 := by
    have e' : Pipeline.arrRef spec0 w' = main_v12 := Proc.devRef_injective _ e
    revert e'; fin_cases w' <;> first | (intro _; rfl) | (intro e'; exact absurd e' (by decide))
  subst hw
  rfl

/-- What the lines after the region find in the shared input array: its contents at the region's entry (both windows
    on it are inputs, which the region never writes). -/
theorem withArrays_in (dats : (p : Fin 1) → (c : Dev nD) → Dat τ (Elt F) Unit ℕ (UR sig nD τ) ℕ (cfgs p) c) (c : Dev nD) (Vx : Valuation τ sig (Elt F))
    (hA : ∀ w, (dats 0 c).A w = V m c (Pipeline.arrRef spec0 w)) :
    Pipeline.withArrays spec0 c Vx (fun w => (dats 0 c).arrAt w cfg0.N) (Proc.devRef .tc main_v11) = V m c main_v11 := by
  unfold Pipeline.withArrays
  have h : ∃ w', Proc.devRef .tc (Pipeline.arrRef spec0 w') = Proc.devRef (τ := τ) .tc main_v11 := ⟨0, rfl⟩
  rw [dif_pos h]
  suffices ∀ (w' : Fin 3) (e : Proc.devRef .tc (Pipeline.arrRef spec0 w') = Proc.devRef (τ := τ) .tc main_v11),
      cast (congrArg (fun b' : DevRef τ sig => b'.ty.Contents (Elt F)) e) ((dats 0 c).arrAt w' cfg0.N) = V m c main_v11 from
    this _ h.choose_spec
  intro w' e
  -- the windows on this array are the two input windows
  have hw : w' = 0 ∨ w' = 1 := by
    have e' : Pipeline.arrRef spec0 w' = main_v11 := Proc.devRef_injective _ e
    revert e'; fin_cases w' <;>
      first | (intro _; exact Or.inl rfl) | (intro _; exact Or.inr rfl) | (intro e'; exact absurd e' (by decide))
  rcases hw with rfl | rfl
  · rw [(dats 0 c).arrAt_in 0 rfl _, hA 0]; rfl
  · rw [(dats 0 c).arrAt_in 1 rfl _, hA 1]; rfl

/-- The windows' shares of their arrays: the two input windows hold the shared array at the two halves of the full
    share, the output window its array at the full share; every array is a whole buffer. -/
theorem arrays_halves (dats : (p : Fin 1) → (c : Dev nD) → Dat τ (Elt F) Unit ℕ (UR sig nD τ) ℕ (cfgs p) c) (c : Dev nD)
    (hq0 : (dats 0 c).q 0 = fullShare.left) (hq1 : (dats 0 c).q 1 = fullShare.right)
    (G : (w : Fin 3) → Buf (Elt F) ((spec0 w).arr.view.loc (c.tc : Thread nD τ))) :
    ((dats 0 c).arrays G : sProp 𝕄)
      = iprop((((c.tc : Thread nD τ).loc main_v11) ↦{fullShare.left} G 0) ∗ (((c.tc : Thread nD τ).loc main_v11) ↦{fullShare.right} G 1)
          ∗ (((c.tc : Thread nD τ).loc main_v12) ↦{fullShare} G 2)) := by
  have h0 : (dats 0 c).share 0 = fullShare.left := (if_neg (show ¬ ((cfg0.win 0).isOut = true) from Bool.false_ne_true)).trans hq0
  have h1 : (dats 0 c).share 1 = fullShare.right := (if_neg (show ¬ ((cfg0.win 1).isOut = true) from Bool.false_ne_true)).trans hq1
  have h2 : (dats 0 c).share 2 = fullShare := if_pos (show (cfg0.win 2).isOut = true from rfl)
  unfold Dat.arrays
  rw [bigSep_W0, (arr_whole0 0).set_eq_univ, (arr_whole0 2).set_eq_univ, h0, h1, h2]

/-- THE DEAL AT THE REGION'S ENTRY: the shared input array, held whole, goes to the two input windows in halves, and the
    output array to its window whole. -/
theorem arrays_deal (dats : (p : Fin 1) → (c : Dev nD) → Dat τ (Elt F) Unit ℕ (UR sig nD τ) ℕ (cfgs p) c) (c : Dev nD)
    (hq0 : (dats 0 c).q 0 = fullShare.left) (hq1 : (dats 0 c).q 1 = fullShare.right)
    (hA : ∀ w, (dats 0 c).A w = V m c (Pipeline.arrRef spec0 w)) :
    (Pipeline.arrBufs spec0 c (V m c) : sProp 𝕄) ⊢ (dats 0 c).arrays ((dats 0 c).arrAt · 0) := by
  have himg : (Finset.univ.image (Pipeline.arrRef spec0) : Finset (Ref sig .tc)) = {main_v11, main_v12} := by decide
  rw [arrays_halves dats c hq0 hq1]
  unfold Pipeline.arrBufs
  rw [himg, bigSep_insert (by decide), bigSep_singleton]
  show iprop((((c.tc : Thread nD τ).loc main_v11) ↦{fullShare} V m c main_v11) ∗ (((c.tc : Thread nD τ).loc main_v12) ↦{fullShare} V m c main_v12))
    ⊢ iprop((((c.tc : Thread nD τ).loc main_v11) ↦{fullShare.left} (dats 0 c).A 0) ∗ (((c.tc : Thread nD τ).loc main_v11) ↦{fullShare.right} (dats 0 c).A 1)
        ∗ (((c.tc : Thread nD τ).loc main_v12) ↦{fullShare} (dats 0 c).A 2))
  rw [hA 0, hA 1, hA 2]
  iintro ⟨H1, H2⟩
  ihave H1 := (pointsTo_share (PosShare.mem_left_op_right fullShare)).1 $$ H1
  icases H1 with ⟨Hl, Hr⟩
  isplitl [Hl]; · iexact Hl
  isplitl [Hr]; · iexact Hr
  iexact H2

/-- No line after the region writes an array of the pipeline: each writes only its own result buffer. -/
theorem hostOps1_keeps : (hostOps1 : List (HloOp τ sig (Elt F))).Forall fun op =>
    Proc.devRef .tc main_v11 ∉ op.writes ∧ Proc.devRef .tc main_v12 ∉ op.writes := by
  simp only [List.Forall, hostOps1, StableHlo.nullary_writes, StableHlo.unary_writes, StableHlo.binary_writes,
    StableHlo.reshape_writes, Finset.mem_singleton]
  repeat' constructor
  all_goals exact StableHlo.devRef_ne_of_ne (by decide)

/-- Every unscoped buffer of the core held whole at a valuation: the two arrays of the pipeline, and the buffers that
    bypass the region. -/
theorem held_unscoped (c : Dev nD) (Wv : Valuation τ sig (Elt F)) :
    (StableHlo.held (c.tc : Thread nD τ) (Pipeline.ucRefs τ sig) Wv : sProp 𝕄)
      = iprop(((((c.tc : Thread nD τ).loc main_v11) ↦{fullShare} Wv (Proc.devRef .tc main_v11))
            ∗ (((c.tc : Thread nD τ).loc main_v12) ↦{fullShare} Wv (Proc.devRef .tc main_v12)))
          ∗ Pipeline.unscopedRestP (Ix := Unit) (Name := ℕ) (U := UR sig nD τ) (Lvl := ℕ) Pipeline.Prefetch.none spec0 c
              (fun b => Wv (Proc.devRef .tc b))) := by
  have himg : (Finset.univ.image (Pipeline.arrRef spec0) : Finset (Ref sig .tc)) = {main_v11, main_v12} := by decide
  rw [← Pipeline.unscopedBufs_held (Ix := Unit) (Name := ℕ) (U := UR sig nD τ) (Lvl := ℕ) c Wv,
    Pipeline.unscopedBufs_split₀ cfgs 0 winFacts₀0.arr_unscoped c, Pipeline.unscopedRestP_none]
  unfold Pipeline.arrBufs
  rw [himg, bigSep_insert (by decide), bigSep_singleton]
  rfl

/-- At the region's exit the two input windows hold the shared array at its entry contents, one half of the full share
    each, and the output window its array whole at what the write-backs made of it. -/
theorem arrays_exit (dats : (p : Fin 1) → (c : Dev nD) → Dat τ (Elt F) Unit ℕ (UR sig nD τ) ℕ (cfgs p) c) (c : Dev nD)
    (hq0 : (dats 0 c).q 0 = fullShare.left) (hq1 : (dats 0 c).q 1 = fullShare.right)
    (hA : ∀ w, (dats 0 c).A w = V m c (Pipeline.arrRef spec0 w)) :
    ((dats 0 c).arrays ((dats 0 c).arrAt · cfg0.N) : sProp 𝕄)
      = iprop((((c.tc : Thread nD τ).loc main_v11) ↦{fullShare.left} V m c main_v11) ∗ (((c.tc : Thread nD τ).loc main_v11) ↦{fullShare.right} V m c main_v11)
          ∗ (((c.tc : Thread nD τ).loc main_v12) ↦{fullShare} (dats 0 c).arrAt 2 cfg0.N)) := by
  rw [arrays_halves dats c hq0 hq1]
  show iprop((((c.tc : Thread nD τ).loc main_v11) ↦{fullShare.left} (dats 0 c).arrAt 0 cfg0.N) ∗ (((c.tc : Thread nD τ).loc main_v11) ↦{fullShare.right} (dats 0 c).arrAt 1 cfg0.N)
      ∗ (((c.tc : Thread nD τ).loc main_v12) ↦{fullShare} (dats 0 c).arrAt 2 cfg0.N)) = _
  rw [(dats 0 c).arrAt_in 0 rfl _, (dats 0 c).arrAt_in 1 rfl _, hA 0, hA 1]

set_option backward.isDefEq.respectTransparency.types false in
/-- THE LINES AFTER THE REGION: at the region's exit the two halves of the shared input array are joined, so that every
    unscoped buffer is held whole; the lines run within them and write neither array of the pipeline; the shared array
    is then dealt in halves again. -/
theorem tail_lines (dats : (p : Fin 1) → (c : Dev nD) → Dat τ (Elt F) Unit ℕ (UR sig nD τ) ℕ (cfgs p) c) (c : Dev nD)
    (hq0 : (dats 0 c).q 0 = fullShare.left) (hq1 : (dats 0 c).q 1 = fullShare.right)
    (hA : ∀ w, (dats 0 c).A w = V m c (Pipeline.arrRef spec0 w)) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c
                  (Pipeline.afterTail₀ cfgs dats 0 (V0 m) [hostOps1] c)) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  classical
  have hsub : ∀ ops ∈ ([hostOps1] : List (List (HloOp τ sig (Elt F)))), ∀ op ∈ ops, op.bufs ⊆ Pipeline.ucRefs τ sig := by
    intro ops hops op hop
    obtain rfl : ops = hostOps1 := List.mem_singleton.mp hops
    exact Pipeline.sub_ucRefs op ((List.forall_iff_forall_mem.mp hostOps1_sub) op hop)
  have hfresh : ∀ ops ∈ ([hostOps1] : List (List (HloOp τ sig (Elt F)))), ∀ op ∈ ops, op.fresh = ∅ := by
    intro ops hops op hop
    obtain rfl : ops = hostOps1 := List.mem_singleton.mp hops
    exact (List.forall_iff_forall_mem.mp hostOps1_fresh) op hop
  have hkeep : ∀ op ∈ ([hostOps1] : List (List (HloOp τ sig (Elt F)))).flatten,
      Proc.devRef .tc main_v11 ∉ op.writes ∧ Proc.devRef .tc main_v12 ∉ op.writes := by
    intro op hop
    rw [List.flatten_singleton] at hop
    exact (List.forall_iff_forall_mem.mp hostOps1_keeps) op hop
  -- every unscoped buffer at the region's exit,
  have hW : (StableHlo.held (c.tc : Thread nD τ) (Pipeline.ucRefs τ sig)
        (Pipeline.withArrays spec0 c (V0 m c) (fun w => (dats 0 c).arrAt w cfg0.N)) : sProp 𝕄)
      = iprop(((((c.tc : Thread nD τ).loc main_v11) ↦{fullShare} V m c main_v11) ∗ (((c.tc : Thread nD τ).loc main_v12) ↦{fullShare} (dats 0 c).arrAt 2 cfg0.N))
          ∗ Pipeline.unscopedRestP (Ix := Unit) (Name := ℕ) (U := UR sig nD τ) (Lvl := ℕ) Pipeline.Prefetch.none spec0 c (V m c)) := by
    have hrest : (Pipeline.unscopedRestP (Ix := Unit) (Name := ℕ) (U := UR sig nD τ) (Lvl := ℕ) Pipeline.Prefetch.none spec0 c
          (fun b => Pipeline.withArrays spec0 c (V0 m c) (fun w => (dats 0 c).arrAt w cfg0.N) (Proc.devRef .tc b)) : sProp 𝕄)
        = Pipeline.unscopedRestP Pipeline.Prefetch.none spec0 c (V m c) := by
      unfold Pipeline.unscopedRestP
      exact bigSep_congr fun b hb => by
        beta_reduce
        rw [Pipeline.withArrays_of_ne spec0 c _ _ b fun w e =>
          (Finset.mem_sdiff.mp (Finset.mem_sdiff.mp hb).1).2 (Finset.mem_image.mpr ⟨w, Finset.mem_univ _, e⟩)]
    rw [held_unscoped c _, withArrays_in m dats c _ hA, withArrays_out dats c _, hrest]
  -- and after the lines: the arrays as they were, the other buffers as the lines leave them
  have hW' : (StableHlo.held (c.tc : Thread nD τ) (Pipeline.ucRefs τ sig)
        (StableHlo.after ([hostOps1] : List (List (HloOp τ sig (Elt F)))).flatten
          (Pipeline.withArrays spec0 c (V0 m c) (fun w => (dats 0 c).arrAt w cfg0.N))) : sProp 𝕄)
      = iprop(((((c.tc : Thread nD τ).loc main_v11) ↦{fullShare} V m c main_v11) ∗ (((c.tc : Thread nD τ).loc main_v12) ↦{fullShare} (dats 0 c).arrAt 2 cfg0.N))
          ∗ Pipeline.unscopedRestP (Ix := Unit) (Name := ℕ) (U := UR sig nD τ) (Lvl := ℕ) Pipeline.Prefetch.none spec0 c
              (Pipeline.afterTail₀ cfgs dats 0 (V0 m) [hostOps1] c)) := by
    rw [held_unscoped c _,
      StableHlo.after_of_forall_not_mem (b := Proc.devRef .tc main_v11) _ _ (fun op hop => (hkeep op hop).1),
      StableHlo.after_of_forall_not_mem (b := Proc.devRef .tc main_v12) _ _ (fun op hop => (hkeep op hop).2),
      withArrays_in m dats c _ hA, withArrays_out dats c _]
    rfl
  rw [arrays_exit m dats c hq0 hq1 hA]
  show _ ⊢ wp frame _ Set.univ (Pipeline.chain (([hostOps1] : List (List (HloOp τ sig (Elt F)))).map StableHlo.seq ++ [])) Q'
  iintro ⟨Hk, Hb, ⟨Hl, Hr, Ho⟩, HZ⟩
  -- the shared array whole again
  ihave H11 := (pointsTo_share (PosShare.mem_left_op_right fullShare)).2 $$ [Hl Hr]
  · isplitl [Hl] <;> iassumption
  ihave Hheld := (Entails.of_eq hW.symm) $$ [H11 Ho HZ]
  · isplitr [HZ]
    · isplitl [H11] <;> iassumption
    · iexact HZ
  iapply (Pipeline.wp_seqs_then (fun q => (cfgs q).toPCfg (Val := Elt F)) defs₀ Variants.none c (Pipeline.ucRefs τ sig) []
    ([hostOps1] : List (List (HloOp τ sig (Elt F)))) hsub hfresh _) $$ [Hb Hheld]
  · isplitl [Hb] <;> iassumption
  iintro Hb
  rw [Pipeline.chain_nil, wp_pure, hW']
  imodintro
  iapply Hk
  icases Hb with ⟨-, ⟨H11, Ho⟩, HZ⟩
  ihave H11 := (pointsTo_share (PosShare.mem_left_op_right fullShare)).1 $$ H11
  icases H11 with ⟨Hl, Hr⟩
  isplitr [HZ]
  · isplitl [Hl]; · iexact Hl
    isplitl [Hr]; · iexact Hr
    iexact Ho
  · iexact HZ

set_option backward.isDefEq.respectTransparency.types false in
/-- THE RUN: at the compiled mesh, for any values, from any memory with zero counters, every weakly fair execution of
    @main terminates; every array of the pipeline ends at what the proof data compute and every other unscoped buffer
    as the lines after the region leave it. The proof data lend the shared input array in halves (`hq0`, `hq1`). -/
theorem run_main_of (dats : (p : Fin 1) → (c : Dev nD) → Dat τ (Elt F) Unit ℕ (UR sig nD τ) ℕ (cfgs p) c)
    (hbody : ∀ c, BodyObligationLoose (dats 0 c) (defs₀ (F := F)) Variants.none () Set.univ)
    (hq0 : ∀ c, (dats 0 c).q 0 = fullShare.left) (hq1 : ∀ c, (dats 0 c).q 1 = fullShare.right)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ)
      (Pipeline.FramePost cfgs dats 0 (Pipeline.afterTail₀ cfgs dats 0 (V0 m) [hostOps1])) := by
  classical
  exact Pipeline.θ_run_region_pf_tail (fun q => (cfgs q).toPCfg (Val := Elt F)) (fun q => (cfgs q).toPCfg_adm) dats ()
    cellOf_inj 0 winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_deal m dats c (hq0 c) (hq1 c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (Pipeline.afterTail₀ cfgs dats 0 (V0 m) [hostOps1] c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_lines m dats c (hq0 c) (hq1 c) (hA c) Q')
    (QY := fun c s => ∀ b ∈ Pipeline.restRefsP sig Pipeline.Prefetch.none spec0,
      s.mem ((c.tc : Thread nD τ).loc b) = Pipeline.afterTail₀ cfgs dats 0 (V0 m) [hostOps1] c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (Pipeline.afterTail₀ cfgs dats 0 (V0 m) [hostOps1] c) s')
      isplitl [HU] <;> iassumption)
    (hQ := fun s h c => ⟨(h c).1, Pipeline.rest_of_restP Pipeline.Prefetch.none spec0 (fun k => k.elim0) c
      (Pipeline.afterTail₀ cfgs dats 0 (V0 m) [hostOps1] c) s (fun k => k.elim0) (h c).2.1 (h c).2.2⟩)

end Cert.Kernel.Frame

end
-- ==== Proof.K.Frame.lean ====
/-
  What the scratch column and the output block hold after every grid point, the proof data of the pipeline, the body
  obligation, and the run.

  After point t = 8 i + j the scratch column holds the sum over the column blocks 0..j of the masked row sums of row
  block i: at j = 0 the cleared column plus block 0's sums, at j > 0 what the point before left plus block j's sums.
  The output block i, stored at j = 7, is that column.
-/
import proofs.«153312_j70085276336663_1_alg».proof.Proof.K.RunC
import proofs.«153312_j70085276336663_1_alg».proof.Proof.K.Launch

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Where the first branch is taken the output block is not stored: a placeholder nothing consults. -/
def out0_A_2 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i) (x0 : Vec F S1024x1024 .bf16) (x1 : Vec F S1024x1024 .bf16) : Vec F S1024x1 .f32 :=
  VO0_2.read (Elt F) (VO0_2.writes (Elt F) VO0_2.junk (kernelRun0_A c i arg2 harg2 arg3 harg3 arg4 harg4 arg5 harg5 hc0 hc1 x0 x1).1)

/-- The stores of that case cover the scratch column. -/
theorem scover0_A_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i) (x0 : Vec F S1024x1024 .bf16) (x1 : Vec F S1024x1024 .bf16) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- What that case leaves in the scratch column. -/
def sout0_A_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i) (x0 : Vec F S1024x1024 .bf16) (x1 : Vec F S1024x1024 .bf16) : Vec F S1024x1 .f32 :=
  VS0_0.read (Elt F) (VS0_0.writes (Elt F) VS0_0.junk (kernelRun0_A c i arg2 harg2 arg3 harg3 arg4 harg4 arg5 harg5 hc0 hc1 x0 x1).2.1)

/-- Where neither branch is taken the output block is not stored: a placeholder nothing consults. -/
def out0_B_2 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (x0 : Vec F S1024x1024 .bf16) (x1 : Vec F S1024x1024 .bf16) (xs0 : Vec F S1024x1 .f32) : Vec F S1024x1 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (x0 : Vec F S1024x1024 .bf16) (x1 : Vec F S1024x1024 .bf16) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

def sout0_B_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (x0 : Vec F S1024x1024 .bf16) (x1 : Vec F S1024x1024 .bf16) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

/-- Where the last branch is taken the one store of the output block covers it. -/
theorem cover0_C_2 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 : Vec F S1024x1024 .bf16) (x1 : Vec F S1024x1024 .bf16) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- What that case leaves in the output block. -/
def out0_C_2 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 : Vec F S1024x1024 .bf16) (x1 : Vec F S1024x1024 .bf16) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 : Vec F S1024x1024 .bf16) (x1 : Vec F S1024x1024 .bf16) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

def sout0_C_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 : Vec F S1024x1024 .bf16) (x1 : Vec F S1024x1024 .bf16) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

/-! ## What the output block and the scratch column hold after each point -/

/-- THE ACCUMULATION, by recursion on the point: the case the point is in, run at the point's memrefs and input blocks,
    the scratch column found at what the point before left (the pair: output block, scratch column). -/
def outsAt0 (c : Dev nD) : (n : ℕ) → n < cfg0.N → Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the scratch at anything); afterwards
    the scratch column at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core `c`: the arrays as the region finds them; after the body each input's buffer at its block,
    the output's at the accumulation's first component; the invariant `PhiS`; the shared input array lent in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the point's column block says which case it is in; the
    invariant hands the body the scratch column at what the point before left (at anything at the first point) and takes
    it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · have h1 : ¬t.val % 8 = 7 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold sout0_A_0; (try dsimp only)
    have hPhi : (dats m 0 c).Φ t.castSucc ⊢ iprop(iprop((∃ d, owns (c : Thread nD τ) scM0_0 fullShare d)) ∗ (∃ r, prngReg c r)) := by
      rw [PhiS_castSucc m c t]
      by_cases hz : t.val = 0
      · rw [PhiS_zero m c _ _ hz, PhiA0_eq]
      · rw [PhiS_pos m c _ _ hz]
        iintro ⟨HS0, Hg⟩
        isplitl [HS0]; · iexists _; iexact HS0
        iexact Hg
    iintro ⟨HPhi, Ho, ⟨%d0, H0⟩, ⟨%d1, H1⟩, ⟨%d2, H2⟩⟩
    ihave ⟨HS0, Hg⟩ := hPhi $$ HPhi
    iapply ((kernelRun0_A c (grid0.coords t) _ _ _ _ _ _ _ _ ((hcond0_0 t).mpr h0) (fun h => h1 ((hcond0_1 t).mp h)) (iblk m c 0 t) (iblk m c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _)
      iexact Hg
    isplitl [Ho]; · iexact Ho
    isplitl [H0]; · iexact H0
    isplitl [H1]; · iexact H1
    iexists _; iexact H2
  · have hz : t.val ≠ 0 := fun hz => h0 (by rw [hz])
    by_cases h1 : t.val % 8 = 7
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

/-- Every weakly fair execution of @main terminates; the pipeline's arrays end at what the proof data compute and every
    other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  run_main_of m ρ (dats m) (fun c => (body_obligation m c).loose) (fun _ => rfl) (fun _ => rfl) (fun _ _ => rfl)
    (A_eq m) (hin m) (hout m)

end Cert.Kernel.Frame

end
-- ==== Proof.K.FrameClaim.lean ====
/-
  The frame claim: the run leaves the two argument arrays as it found them. Neither is an array of the pipeline, no host
  line before or after the region writes them, and the region touches only its windows' arrays.
-/
import proofs.«153312_j70085276336663_1_alg».proof.Proof.K.Frame
import Idealize.ShloMosaic.Lib.StableHlo.Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem end_arg0 (c : Dev nD) :
    Pipeline.afterTail₀ cfgs (dats m) 0 (V0 m) [hostOps1] c main_arg0 = m ((c.tc : Thread nD τ).loc main_arg0) := by
  show StableHlo.after hostOps1 _ (Proc.devRef .tc main_arg0) = _
  after_results
  rw [Pipeline.withArrays_of_ne (cfgs 0).spec c (V0 m c) _ main_arg0 (fun w => by fin_cases w <;> decide)]
  show V m c main_arg0 = _
  dsimp only [V, V0, pre]
  simp only [hostOps0, hostOps0_1, hostOps0_2, hostOps0_3, List.flatten_cons, List.flatten_nil, List.append_nil, List.cons_append, List.nil_append]
  after_results

theorem end_arg1 (c : Dev nD) :
    Pipeline.afterTail₀ cfgs (dats m) 0 (V0 m) [hostOps1] c main_arg1 = m ((c.tc : Thread nD τ).loc main_arg1) := by
  show StableHlo.after hostOps1 _ (Proc.devRef .tc main_arg1) = _
  after_results
  rw [Pipeline.withArrays_of_ne (cfgs 0).spec c (V0 m c) _ main_arg1 (fun w => by fin_cases w <;> decide)]
  show V m c main_arg1 = _
  dsimp only [V, V0, pre]
  simp only [hostOps0, hostOps0_1, hostOps0_2, hostOps0_3, List.flatten_cons, List.flatten_nil, List.append_nil, List.cons_append, List.nil_append]
  after_results

/-- THE FRAME, at any instance: every weakly fair execution of @main terminates, nothing faulting, and the argument arrays
    end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of _ rfl (fun w => by fin_cases w <;> decide))).trans (end_arg0 m c),
     ((h c).2 main_arg1 (Pipeline.mem_restRefs_of _ rfl (fun w => by fin_cases w <;> decide))).trans (end_arg1 m c)⟩)
    (run_main m ρ)

end Cert.Kernel.Frame

end
-- ==== Proof.KI.Runs.lean ====
/-
  The denominators' kernel, one grid point at a time: what the runs of its three control cases share.

  The grid is 8 x 8, point t = 8 i + j standing for row block i and column block j of the 8192 x 8192 similarity
  matrix. Both input windows read ONE array, the normalized rows in bf16: window 0 its row block i (fetched when j = 0),
  window 1 its row block j (fetched at every point). The scratch column is cleared when j = 0, receives the masked row
  sums of exp(2 <q_p, k_q>) at every point, and is copied to the output block i when j = 7; at the other points the output
  window is idle and is not written back.
-/
import proofs.«153312_j70085276336663_1_alg».proof.Proof.Gen.KernelIdeal.Launch
import proofs.«153312_j70085276336663_1_alg».proof.Proof.Gen.KernelIdeal.Skeleton
import proofs.«153312_j70085276336663_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region: the two row normalizations, the concatenation and the change of format. -/
abbrev pre : List (List (HloOp τ sig (Elt F))) := [hostOps0, hostOps0_1, hostOps0_2, hostOps0_3]

/-- Core `c`'s buffer contents when the region is entered. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, and the lines after it: it reduces to the region continued by
    the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    ⟨hostOps0_sub, hostOps0_1_sub, hostOps0_2_sub, hostOps0_3_sub⟩
    ⟨hostOps0_fresh, hostOps0_1_fresh, hostOps0_2_fresh, hostOps0_3_fresh⟩ main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (when it is not
    fetched its index has not moved), for any proof data whose array is the region-entry contents and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch (clear the scratch column) is taken when the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The last branch (copy the scratch column out) is taken when the column-block coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the column block is not the last the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging memrefs and the scratch -/

/-- One staging buffer of the output window, through which its contents are stated. -/
abbrev VO0_2 : View sig .tc .vmem S1024x1 .f32 := (Memref.whole cc0_stg2_0 : Memref sig .tc .vmem S1024x1 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The scratch column the kernel carries between points. -/
abbrev scM0_0 : Memref sig .tc .vmem S1024x1 .f32 := Memref.whole cc0_scratch0
abbrev VS0_0 : View sig .tc .vmem S1024x1 .f32 := scM0_0.view

/-- The region's class invariant with the scratch column as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frame

end
-- ==== Proof.KI.RunA.lean ====
/-
  The body's run where the column block is the first (j = 0): the scratch column is cleared, then receives this block's
  masked row sums; the output window is not touched.
-/
import proofs.«153312_j70085276336663_1_alg».proof.Proof.KI.Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the stores leave in the scratch column when the first branch is taken and the last is not, with the proof
    that on whole staging memrefs (the inputs at their blocks, the idle output handed back untouched, the scratch at
    anything) the body runs to the continuation holding the scratch with those pieces written. -/
noncomputable def kernelRun0_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x1024 .bf16) (x1 : Vec F S1024x1024 .bf16) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frame

end
-- ==== Proof.KI.RunB.lean ====
/-
  The body's run where the column block is neither the first nor the last (0 < j < 7): the scratch column, found at
  what the point before left, receives this block's masked row sums; the output window is not touched.
-/
import proofs.«153312_j70085276336663_1_alg».proof.Proof.KI.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the stores leave in the scratch column when neither branch is taken, with the proof that on whole staging
    memrefs (the inputs at their blocks, the idle output handed back untouched, the scratch at `xs0`) the body runs to
    the continuation holding the scratch with those pieces written. -/
noncomputable def kernelRun0_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x1024 .bf16) (x1 : Vec F S1024x1024 .bf16) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frame

end
-- ==== Proof.KI.RunC.lean ====
/-
  The body's run where the column block is the last (j = 7): the scratch column receives this block's masked row sums
  and is then copied whole into the output block.
-/
import proofs.«153312_j70085276336663_1_alg».proof.Proof.KI.RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the stores leave in the output block and in the scratch column when the last branch is taken, with the
    proof that on whole staging memrefs (the inputs at their blocks, the output at anything, the scratch at `xs0`) the
    body runs to the continuation holding both with those pieces written. -/
noncomputable def kernelRun0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x1024 .bf16) (x1 : Vec F S1024x1024 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KI.Launch.lean ====
/-
  The launch of the one region and the host lines around it, for a kernel whose two input windows read ONE array.

  The array behind both input windows is held whole when the region is entered; it is dealt to the two windows in halves
  (each window only reads it), the output array goes to its window whole, and at the region's exit the halves are joined
  again so that the lines after the region run within every unscoped buffer.
-/
import proofs.«153312_j70085276336663_1_alg».proof.Proof.KI.Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the lines after the region find in the output array: what the region's write-backs made of it (the only window
    on that array is the output window). -/
theorem withArrays_out (dats : (p : Fin 1) → (c : Dev nD) → Dat τ (Elt F) Unit ℕ (UR sig nD τ) ℕ (cfgs p) c) (c : Dev nD) (Vx : Valuation τ sig (Elt F)) :
    Pipeline.withArrays spec0 c Vx (fun w => (dats 0 c).arrAt w cfg0.N) (Proc.devRef .tc main_v12) = (dats 0 c).arrAt 2 cfg0.N := by
  unfold Pipeline.withArrays
  have h : ∃ w', Proc.devRef .tc (Pipeline.arrRef spec0 w') = Proc.devRef (τ := τ) .tc main_v12 := ⟨2, rfl⟩
  rw [dif_pos h]
  suffices ∀ (w' : Fin 3) (e : Proc.devRef .tc (Pipeline.arrRef spec0 w') = Proc.devRef (τ := τ) .tc main_v12),
      cast (congrArg (fun b' : DevRef τ sig => b'.ty.Contents (Elt F)) e) ((dats 0 c).arrAt w' cfg0.N) = (dats 0 c).arrAt 2 cfg0.N from
    this _ h.choose_spec
  intro w' e
  -- the output window is the only one on this array
  have hw : w' = 2 := by
    have e' : Pipeline.arrRef spec0 w' = main_v12 := Proc.devRef_injective _ e
    revert e'; fin_cases w' <;> first | (intro _; rfl) | (intro e'; exact absurd e' (by decide))
  subst hw
  rfl

/-- What the lines after the region find in the shared input array: its contents at the region's entry (both windows
    on it are inputs, which the region never writes). -/
theorem withArrays_in (dats : (p : Fin 1) → (c : Dev nD) → Dat τ (Elt F) Unit ℕ (UR sig nD τ) ℕ (cfgs p) c) (c : Dev nD) (Vx : Valuation τ sig (Elt F))
    (hA : ∀ w, (dats 0 c).A w = V m c (Pipeline.arrRef spec0 w)) :
    Pipeline.withArrays spec0 c Vx (fun w => (dats 0 c).arrAt w cfg0.N) (Proc.devRef .tc main_v11) = V m c main_v11 := by
  unfold Pipeline.withArrays
  have h : ∃ w', Proc.devRef .tc (Pipeline.arrRef spec0 w') = Proc.devRef (τ := τ) .tc main_v11 := ⟨0, rfl⟩
  rw [dif_pos h]
  suffices ∀ (w' : Fin 3) (e : Proc.devRef .tc (Pipeline.arrRef spec0 w') = Proc.devRef (τ := τ) .tc main_v11),
      cast (congrArg (fun b' : DevRef τ sig => b'.ty.Contents (Elt F)) e) ((dats 0 c).arrAt w' cfg0.N) = V m c main_v11 from
    this _ h.choose_spec
  intro w' e
  -- the windows on this array are the two input windows
  have hw : w' = 0 ∨ w' = 1 := by
    have e' : Pipeline.arrRef spec0 w' = main_v11 := Proc.devRef_injective _ e
    revert e'; fin_cases w' <;>
      first | (intro _; exact Or.inl rfl) | (intro _; exact Or.inr rfl) | (intro e'; exact absurd e' (by decide))
  rcases hw with rfl | rfl
  · rw [(dats 0 c).arrAt_in 0 rfl _, hA 0]; rfl
  · rw [(dats 0 c).arrAt_in 1 rfl _, hA 1]; rfl

/-- The windows' shares of their arrays: the two input windows hold the shared array at the two halves of the full
    share, the output window its array at the full share; every array is a whole buffer. -/
theorem arrays_halves (dats : (p : Fin 1) → (c : Dev nD) → Dat τ (Elt F) Unit ℕ (UR sig nD τ) ℕ (cfgs p) c) (c : Dev nD)
    (hq0 : (dats 0 c).q 0 = fullShare.left) (hq1 : (dats 0 c).q 1 = fullShare.right)
    (G : (w : Fin 3) → Buf (Elt F) ((spec0 w).arr.view.loc (c.tc : Thread nD τ))) :
    ((dats 0 c).arrays G : sProp 𝕄)
      = iprop((((c.tc : Thread nD τ).loc main_v11) ↦{fullShare.left} G 0) ∗ (((c.tc : Thread nD τ).loc main_v11) ↦{fullShare.right} G 1)
          ∗ (((c.tc : Thread nD τ).loc main_v12) ↦{fullShare} G 2)) := by
  have h0 : (dats 0 c).share 0 = fullShare.left := (if_neg (show ¬ ((cfg0.win 0).isOut = true) from Bool.false_ne_true)).trans hq0
  have h1 : (dats 0 c).share 1 = fullShare.right := (if_neg (show ¬ ((cfg0.win 1).isOut = true) from Bool.false_ne_true)).trans hq1
  have h2 : (dats 0 c).share 2 = fullShare := if_pos (show (cfg0.win 2).isOut = true from rfl)
  unfold Dat.arrays
  rw [bigSep_W0, (arr_whole0 0).set_eq_univ, (arr_whole0 2).set_eq_univ, h0, h1, h2]

/-- THE DEAL AT THE REGION'S ENTRY: the shared input array, held whole, goes to the two input windows in halves, and the
    output array to its window whole. -/
theorem arrays_deal (dats : (p : Fin 1) → (c : Dev nD) → Dat τ (Elt F) Unit ℕ (UR sig nD τ) ℕ (cfgs p) c) (c : Dev nD)
    (hq0 : (dats 0 c).q 0 = fullShare.left) (hq1 : (dats 0 c).q 1 = fullShare.right)
    (hA : ∀ w, (dats 0 c).A w = V m c (Pipeline.arrRef spec0 w)) :
    (Pipeline.arrBufs spec0 c (V m c) : sProp 𝕄) ⊢ (dats 0 c).arrays ((dats 0 c).arrAt · 0) := by
  have himg : (Finset.univ.image (Pipeline.arrRef spec0) : Finset (Ref sig .tc)) = {main_v11, main_v12} := by decide
  rw [arrays_halves dats c hq0 hq1]
  unfold Pipeline.arrBufs
  rw [himg, bigSep_insert (by decide), bigSep_singleton]
  show iprop((((c.tc : Thread nD τ).loc main_v11) ↦{fullShare} V m c main_v11) ∗ (((c.tc : Thread nD τ).loc main_v12) ↦{fullShare} V m c main_v12))
    ⊢ iprop((((c.tc : Thread nD τ).loc main_v11) ↦{fullShare.left} (dats 0 c).A 0) ∗ (((c.tc : Thread nD τ).loc main_v11) ↦{fullShare.right} (dats 0 c).A 1)
        ∗ (((c.tc : Thread nD τ).loc main_v12) ↦{fullShare} (dats 0 c).A 2))
  rw [hA 0, hA 1, hA 2]
  iintro ⟨H1, H2⟩
  ihave H1 := (pointsTo_share (PosShare.mem_left_op_right fullShare)).1 $$ H1
  icases H1 with ⟨Hl, Hr⟩
  isplitl [Hl]; · iexact Hl
  isplitl [Hr]; · iexact Hr
  iexact H2

/-- No line after the region writes an array of the pipeline: each writes only its own result buffer. -/
theorem hostOps1_keeps : (hostOps1 : List (HloOp τ sig (Elt F))).Forall fun op =>
    Proc.devRef .tc main_v11 ∉ op.writes ∧ Proc.devRef .tc main_v12 ∉ op.writes := by
  simp only [List.Forall, hostOps1, StableHlo.nullary_writes, StableHlo.unary_writes, StableHlo.binary_writes,
    StableHlo.reshape_writes, Finset.mem_singleton]
  repeat' constructor
  all_goals exact StableHlo.devRef_ne_of_ne (by decide)

/-- Every unscoped buffer of the core held whole at a valuation: the two arrays of the pipeline, and the buffers that
    bypass the region. -/
theorem held_unscoped (c : Dev nD) (Wv : Valuation τ sig (Elt F)) :
    (StableHlo.held (c.tc : Thread nD τ) (Pipeline.ucRefs τ sig) Wv : sProp 𝕄)
      = iprop(((((c.tc : Thread nD τ).loc main_v11) ↦{fullShare} Wv (Proc.devRef .tc main_v11))
            ∗ (((c.tc : Thread nD τ).loc main_v12) ↦{fullShare} Wv (Proc.devRef .tc main_v12)))
          ∗ Pipeline.unscopedRestP (Ix := Unit) (Name := ℕ) (U := UR sig nD τ) (Lvl := ℕ) Pipeline.Prefetch.none spec0 c
              (fun b => Wv (Proc.devRef .tc b))) := by
  have himg : (Finset.univ.image (Pipeline.arrRef spec0) : Finset (Ref sig .tc)) = {main_v11, main_v12} := by decide
  rw [← Pipeline.unscopedBufs_held (Ix := Unit) (Name := ℕ) (U := UR sig nD τ) (Lvl := ℕ) c Wv,
    Pipeline.unscopedBufs_split₀ cfgs 0 winFacts₀0.arr_unscoped c, Pipeline.unscopedRestP_none]
  unfold Pipeline.arrBufs
  rw [himg, bigSep_insert (by decide), bigSep_singleton]
  rfl

/-- At the region's exit the two input windows hold the shared array at its entry contents, one half of the full share
    each, and the output window its array whole at what the write-backs made of it. -/
theorem arrays_exit (dats : (p : Fin 1) → (c : Dev nD) → Dat τ (Elt F) Unit ℕ (UR sig nD τ) ℕ (cfgs p) c) (c : Dev nD)
    (hq0 : (dats 0 c).q 0 = fullShare.left) (hq1 : (dats 0 c).q 1 = fullShare.right)
    (hA : ∀ w, (dats 0 c).A w = V m c (Pipeline.arrRef spec0 w)) :
    ((dats 0 c).arrays ((dats 0 c).arrAt · cfg0.N) : sProp 𝕄)
      = iprop((((c.tc : Thread nD τ).loc main_v11) ↦{fullShare.left} V m c main_v11) ∗ (((c.tc : Thread nD τ).loc main_v11) ↦{fullShare.right} V m c main_v11)
          ∗ (((c.tc : Thread nD τ).loc main_v12) ↦{fullShare} (dats 0 c).arrAt 2 cfg0.N)) := by
  rw [arrays_halves dats c hq0 hq1]
  show iprop((((c.tc : Thread nD τ).loc main_v11) ↦{fullShare.left} (dats 0 c).arrAt 0 cfg0.N) ∗ (((c.tc : Thread nD τ).loc main_v11) ↦{fullShare.right} (dats 0 c).arrAt 1 cfg0.N)
      ∗ (((c.tc : Thread nD τ).loc main_v12) ↦{fullShare} (dats 0 c).arrAt 2 cfg0.N)) = _
  rw [(dats 0 c).arrAt_in 0 rfl _, (dats 0 c).arrAt_in 1 rfl _, hA 0, hA 1]

set_option backward.isDefEq.respectTransparency.types false in
/-- THE LINES AFTER THE REGION: at the region's exit the two halves of the shared input array are joined, so that every
    unscoped buffer is held whole; the lines run within them and write neither array of the pipeline; the shared array
    is then dealt in halves again. -/
theorem tail_lines (dats : (p : Fin 1) → (c : Dev nD) → Dat τ (Elt F) Unit ℕ (UR sig nD τ) ℕ (cfgs p) c) (c : Dev nD)
    (hq0 : (dats 0 c).q 0 = fullShare.left) (hq1 : (dats 0 c).q 1 = fullShare.right)
    (hA : ∀ w, (dats 0 c).A w = V m c (Pipeline.arrRef spec0 w)) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c
                  (Pipeline.afterTail₀ cfgs dats 0 (V0 m) [hostOps1] c)) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  classical
  have hsub : ∀ ops ∈ ([hostOps1] : List (List (HloOp τ sig (Elt F)))), ∀ op ∈ ops, op.bufs ⊆ Pipeline.ucRefs τ sig := by
    intro ops hops op hop
    obtain rfl : ops = hostOps1 := List.mem_singleton.mp hops
    exact Pipeline.sub_ucRefs op ((List.forall_iff_forall_mem.mp hostOps1_sub) op hop)
  have hfresh : ∀ ops ∈ ([hostOps1] : List (List (HloOp τ sig (Elt F)))), ∀ op ∈ ops, op.fresh = ∅ := by
    intro ops hops op hop
    obtain rfl : ops = hostOps1 := List.mem_singleton.mp hops
    exact (List.forall_iff_forall_mem.mp hostOps1_fresh) op hop
  have hkeep : ∀ op ∈ ([hostOps1] : List (List (HloOp τ sig (Elt F)))).flatten,
      Proc.devRef .tc main_v11 ∉ op.writes ∧ Proc.devRef .tc main_v12 ∉ op.writes := by
    intro op hop
    rw [List.flatten_singleton] at hop
    exact (List.forall_iff_forall_mem.mp hostOps1_keeps) op hop
  -- every unscoped buffer at the region's exit,
  have hW : (StableHlo.held (c.tc : Thread nD τ) (Pipeline.ucRefs τ sig)
        (Pipeline.withArrays spec0 c (V0 m c) (fun w => (dats 0 c).arrAt w cfg0.N)) : sProp 𝕄)
      = iprop(((((c.tc : Thread nD τ).loc main_v11) ↦{fullShare} V m c main_v11) ∗ (((c.tc : Thread nD τ).loc main_v12) ↦{fullShare} (dats 0 c).arrAt 2 cfg0.N))
          ∗ Pipeline.unscopedRestP (Ix := Unit) (Name := ℕ) (U := UR sig nD τ) (Lvl := ℕ) Pipeline.Prefetch.none spec0 c (V m c)) := by
    have hrest : (Pipeline.unscopedRestP (Ix := Unit) (Name := ℕ) (U := UR sig nD τ) (Lvl := ℕ) Pipeline.Prefetch.none spec0 c
          (fun b => Pipeline.withArrays spec0 c (V0 m c) (fun w => (dats 0 c).arrAt w cfg0.N) (Proc.devRef .tc b)) : sProp 𝕄)
        = Pipeline.unscopedRestP Pipeline.Prefetch.none spec0 c (V m c) := by
      unfold Pipeline.unscopedRestP
      exact bigSep_congr fun b hb => by
        beta_reduce
        rw [Pipeline.withArrays_of_ne spec0 c _ _ b fun w e =>
          (Finset.mem_sdiff.mp (Finset.mem_sdiff.mp hb).1).2 (Finset.mem_image.mpr ⟨w, Finset.mem_univ _, e⟩)]
    rw [held_unscoped c _, withArrays_in m dats c _ hA, withArrays_out dats c _, hrest]
  -- and after the lines: the arrays as they were, the other buffers as the lines leave them
  have hW' : (StableHlo.held (c.tc : Thread nD τ) (Pipeline.ucRefs τ sig)
        (StableHlo.after ([hostOps1] : List (List (HloOp τ sig (Elt F)))).flatten
          (Pipeline.withArrays spec0 c (V0 m c) (fun w => (dats 0 c).arrAt w cfg0.N))) : sProp 𝕄)
      = iprop(((((c.tc : Thread nD τ).loc main_v11) ↦{fullShare} V m c main_v11) ∗ (((c.tc : Thread nD τ).loc main_v12) ↦{fullShare} (dats 0 c).arrAt 2 cfg0.N))
          ∗ Pipeline.unscopedRestP (Ix := Unit) (Name := ℕ) (U := UR sig nD τ) (Lvl := ℕ) Pipeline.Prefetch.none spec0 c
              (Pipeline.afterTail₀ cfgs dats 0 (V0 m) [hostOps1] c)) := by
    rw [held_unscoped c _,
      StableHlo.after_of_forall_not_mem (b := Proc.devRef .tc main_v11) _ _ (fun op hop => (hkeep op hop).1),
      StableHlo.after_of_forall_not_mem (b := Proc.devRef .tc main_v12) _ _ (fun op hop => (hkeep op hop).2),
      withArrays_in m dats c _ hA, withArrays_out dats c _]
    rfl
  rw [arrays_exit m dats c hq0 hq1 hA]
  show _ ⊢ wp frame _ Set.univ (Pipeline.chain (([hostOps1] : List (List (HloOp τ sig (Elt F)))).map StableHlo.seq ++ [])) Q'
  iintro ⟨Hk, Hb, ⟨Hl, Hr, Ho⟩, HZ⟩
  -- the shared array whole again
  ihave H11 := (pointsTo_share (PosShare.mem_left_op_right fullShare)).2 $$ [Hl Hr]
  · isplitl [Hl] <;> iassumption
  ihave Hheld := (Entails.of_eq hW.symm) $$ [H11 Ho HZ]
  · isplitr [HZ]
    · isplitl [H11] <;> iassumption
    · iexact HZ
  iapply (Pipeline.wp_seqs_then (fun q => (cfgs q).toPCfg (Val := Elt F)) defs₀ Variants.none c (Pipeline.ucRefs τ sig) []
    ([hostOps1] : List (List (HloOp τ sig (Elt F)))) hsub hfresh _) $$ [Hb Hheld]
  · isplitl [Hb] <;> iassumption
  iintro Hb
  rw [Pipeline.chain_nil, wp_pure, hW']
  imodintro
  iapply Hk
  icases Hb with ⟨-, ⟨H11, Ho⟩, HZ⟩
  ihave H11 := (pointsTo_share (PosShare.mem_left_op_right fullShare)).1 $$ H11
  icases H11 with ⟨Hl, Hr⟩
  isplitr [HZ]
  · isplitl [Hl]; · iexact Hl
    isplitl [Hr]; · iexact Hr
    iexact Ho
  · iexact HZ

set_option backward.isDefEq.respectTransparency.types false in
/-- THE RUN: at the compiled mesh, for any values, from any memory with zero counters, every weakly fair execution of
    @main terminates; every array of the pipeline ends at what the proof data compute and every other unscoped buffer
    as the lines after the region leave it. The proof data lend the shared input array in halves (`hq0`, `hq1`). -/
theorem run_main_of (dats : (p : Fin 1) → (c : Dev nD) → Dat τ (Elt F) Unit ℕ (UR sig nD τ) ℕ (cfgs p) c)
    (hbody : ∀ c, BodyObligationLoose (dats 0 c) (defs₀ (F := F)) Variants.none () Set.univ)
    (hq0 : ∀ c, (dats 0 c).q 0 = fullShare.left) (hq1 : ∀ c, (dats 0 c).q 1 = fullShare.right)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ)
      (Pipeline.FramePost cfgs dats 0 (Pipeline.afterTail₀ cfgs dats 0 (V0 m) [hostOps1])) := by
  classical
  exact Pipeline.θ_run_region_pf_tail (fun q => (cfgs q).toPCfg (Val := Elt F)) (fun q => (cfgs q).toPCfg_adm) dats ()
    cellOf_inj 0 winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_deal m dats c (hq0 c) (hq1 c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (Pipeline.afterTail₀ cfgs dats 0 (V0 m) [hostOps1] c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_lines m dats c (hq0 c) (hq1 c) (hA c) Q')
    (QY := fun c s => ∀ b ∈ Pipeline.restRefsP sig Pipeline.Prefetch.none spec0,
      s.mem ((c.tc : Thread nD τ).loc b) = Pipeline.afterTail₀ cfgs dats 0 (V0 m) [hostOps1] c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (Pipeline.afterTail₀ cfgs dats 0 (V0 m) [hostOps1] c) s')
      isplitl [HU] <;> iassumption)
    (hQ := fun s h c => ⟨(h c).1, Pipeline.rest_of_restP Pipeline.Prefetch.none spec0 (fun k => k.elim0) c
      (Pipeline.afterTail₀ cfgs dats 0 (V0 m) [hostOps1] c) s (fun k => k.elim0) (h c).2.1 (h c).2.2⟩)

end Cert.KernelIdeal.Frame

end
-- ==== Proof.KI.Frame.lean ====
/-
  What the scratch column and the output block hold after every grid point, the proof data of the pipeline, the body
  obligation, and the run.

  After point t = 8 i + j the scratch column holds the sum over the column blocks 0..j of the masked row sums of row
  block i: at j = 0 the cleared column plus block 0's sums, at j > 0 what the point before left plus block j's sums.
  The output block i, stored at j = 7, is that column.
-/
import proofs.«153312_j70085276336663_1_alg».proof.Proof.KI.RunC
import proofs.«153312_j70085276336663_1_alg».proof.Proof.KI.Launch

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Where the first branch is taken the output block is not stored: a placeholder nothing consults. -/
def out0_A_2 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i) (x0 : Vec F S1024x1024 .bf16) (x1 : Vec F S1024x1024 .bf16) : Vec F S1024x1 .f32 :=
  VO0_2.read (Elt F) (VO0_2.writes (Elt F) VO0_2.junk (kernelRun0_A c i arg2 harg2 arg3 harg3 arg4 harg4 arg5 harg5 hc0 hc1 x0 x1).1)

/-- The stores of that case cover the scratch column. -/
theorem scover0_A_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i) (x0 : Vec F S1024x1024 .bf16) (x1 : Vec F S1024x1024 .bf16) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- What that case leaves in the scratch column. -/
def sout0_A_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i) (x0 : Vec F S1024x1024 .bf16) (x1 : Vec F S1024x1024 .bf16) : Vec F S1024x1 .f32 :=
  VS0_0.read (Elt F) (VS0_0.writes (Elt F) VS0_0.junk (kernelRun0_A c i arg2 harg2 arg3 harg3 arg4 harg4 arg5 harg5 hc0 hc1 x0 x1).2.1)

/-- Where neither branch is taken the output block is not stored: a placeholder nothing consults. -/
def out0_B_2 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (x0 : Vec F S1024x1024 .bf16) (x1 : Vec F S1024x1024 .bf16) (xs0 : Vec F S1024x1 .f32) : Vec F S1024x1 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (x0 : Vec F S1024x1024 .bf16) (x1 : Vec F S1024x1024 .bf16) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

def sout0_B_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (x0 : Vec F S1024x1024 .bf16) (x1 : Vec F S1024x1024 .bf16) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

/-- Where the last branch is taken the one store of the output block covers it. -/
theorem cover0_C_2 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 : Vec F S1024x1024 .bf16) (x1 : Vec F S1024x1024 .bf16) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- What that case leaves in the output block. -/
def out0_C_2 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 : Vec F S1024x1024 .bf16) (x1 : Vec F S1024x1024 .bf16) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 : Vec F S1024x1024 .bf16) (x1 : Vec F S1024x1024 .bf16) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

def sout0_C_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 : Vec F S1024x1024 .bf16) (x1 : Vec F S1024x1024 .bf16) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

/-! ## What the output block and the scratch column hold after each point -/

/-- THE ACCUMULATION, by recursion on the point: the case the point is in, run at the point's memrefs and input blocks,
    the scratch column found at what the point before left (the pair: output block, scratch column). -/
def outsAt0 (c : Dev nD) : (n : ℕ) → n < cfg0.N → Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the scratch at anything); afterwards
    the scratch column at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core `c`: the arrays as the region finds them; after the body each input's buffer at its block,
    the output's at the accumulation's first component; the invariant `PhiS`; the shared input array lent in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the point's column block says which case it is in; the
    invariant hands the body the scratch column at what the point before left (at anything at the first point) and takes
    it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · have h1 : ¬t.val % 8 = 7 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold sout0_A_0; (try dsimp only)
    have hPhi : (dats m 0 c).Φ t.castSucc ⊢ iprop(iprop((∃ d, owns (c : Thread nD τ) scM0_0 fullShare d)) ∗ (∃ r, prngReg c r)) := by
      rw [PhiS_castSucc m c t]
      by_cases hz : t.val = 0
      · rw [PhiS_zero m c _ _ hz, PhiA0_eq]
      · rw [PhiS_pos m c _ _ hz]
        iintro ⟨HS0, Hg⟩
        isplitl [HS0]; · iexists _; iexact HS0
        iexact Hg
    iintro ⟨HPhi, Ho, ⟨%d0, H0⟩, ⟨%d1, H1⟩, ⟨%d2, H2⟩⟩
    ihave ⟨HS0, Hg⟩ := hPhi $$ HPhi
    iapply ((kernelRun0_A c (grid0.coords t) _ _ _ _ _ _ _ _ ((hcond0_0 t).mpr h0) (fun h => h1 ((hcond0_1 t).mp h)) (iblk m c 0 t) (iblk m c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _)
      iexact Hg
    isplitl [Ho]; · iexact Ho
    isplitl [H0]; · iexact H0
    isplitl [H1]; · iexact H1
    iexists _; iexact H2
  · have hz : t.val ≠ 0 := fun hz => h0 (by rw [hz])
    by_cases h1 : t.val % 8 = 7
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

/-- Every weakly fair execution of @main terminates; the pipeline's arrays end at what the proof data compute and every
    other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  run_main_of m ρ (dats m) (fun c => (body_obligation m c).loose) (fun _ => rfl) (fun _ => rfl) (fun _ _ => rfl)
    (A_eq m) (hin m) (hout m)

end Cert.KernelIdeal.Frame

end
-- ==== Proof.KI.Pieces.lean ====
/-
  The pieces the runs found, read back: what each case leaves in the scratch column and in the output block is the
  body's one arithmetic payload (the column found plus this block's masked row sums), at the cleared column in the
  first case.
-/
import proofs.«153312_j70085276336663_1_alg».proof.Proof.KI.Frame
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- First column block: the cleared column plus this block's masked row sums. -/
theorem sout0_A_0_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i) (x0 : Vec F S1024x1024 .bf16) (x1 : Vec F S1024x1024 .bf16) :
    sout0_A_0 c i arg2 harg2 arg3 harg3 arg4 harg4 arg5 harg5 hc0 hc1 x0 x1 = k0_pay2 i x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) hz]
  simp only [View.readAt_eq_ld, harg2.read_unread, harg3.read_unread, View.ld_unit_zero (S := S1024x1024) hz, View.ld_unit_zero (S := S1024x1) hz, View.readCov_unit_zero (S := S1024x1) _ hz]

/-- A middle column block: the column found plus this block's masked row sums. -/
theorem sout0_B_0_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (x0 : Vec F S1024x1024 .bf16) (x1 : Vec F S1024x1024 .bf16) (xs0 : Vec F S1024x1 .f32) :
    sout0_B_0 c i arg2 harg2 arg3 harg3 arg4 harg4 arg5 harg5 hc0 hc1 x0 x1 xs0 = k0_pay2 i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S1024x1024) hz, View.ld_unit_zero (S := S1024x1) hz]

/-- The last column block: the same in the scratch column, -/
theorem sout0_C_0_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 : Vec F S1024x1024 .bf16) (x1 : Vec F S1024x1024 .bf16) (xs0 : Vec F S1024x1 .f32) :
    sout0_C_0 c i arg2 harg2 arg3 harg3 arg4 harg4 arg5 harg5 hc0 hc1 x0 x1 xs0 = k0_pay2 i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S1024x1024) hz, View.ld_unit_zero (S := S1024x1) hz]

/-- and the output block is that column, copied. -/
theorem out0_C_2_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 : Vec F S1024x1024 .bf16) (x1 : Vec F S1024x1024 .bf16) (xs0 : Vec F S1024x1 .f32) :
    out0_C_2 c i arg2 harg2 arg3 harg3 arg4 harg4 arg5 harg5 hc0 hc1 x0 x1 xs0 = k0_pay2 i x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S1024x1024) hz, View.ld_unit_zero (S := S1024x1) hz, View.readCov_unit_zero (S := S1024x1) _ hz]

end Cert.KernelIdeal.Frame

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Spec.lean ====
/-
  The contrastive loss, row by row, as one function of the 8192 x 1024 matrix X of normalized rows.

  sim X r c = <X_r, X_c>; term X r c = exp(2 sim X r c) off the diagonal and 0 on it; den X r = the sum of the terms of row r;
  pos X r = <X_{r mod 4096}, X_{r mod 4096 + 4096}>, the similarity of row r with its partner; the partial loss of row r is
  -(pos X r / (1/2) - log (den X r)). The denominator may be summed block by block, and a term is (1 - [r = c]) exp(sim / (1/2)).
-/
import Idealize.ShloMosaic.PureOps.Ideal.Laws
import Idealize.ShloMosaic.Lib.ValueIdx

noncomputable section

namespace Cert.Spec

open Idealize.ShloMosaic Idealize.ShloMosaic.ValueIdx

/-- The normalized rows. -/
abbrev Rows : Type := (⟨2, ![8192, 1024]⟩ : Shape).Idx → EReal

/-- The literals 2, 1/2 and 1 as the programs spell them. -/
abbrev two : EReal := Ideal.ofBits .f32 0x40000000#32
abbrev half : EReal := Ideal.ofBits .f32 0x3F000000#32
abbrev one : EReal := Ideal.ofBits .f32 0x3F800000#32

/-- The similarity of rows r and c. -/
def sim (X : Rows) (r c : Fin 8192) : EReal := ∑ k : Fin 1024, X (ix2 r k) * X (ix2 c k)

/-- One term of row r's denominator. -/
def term (X : Rows) (r c : Fin 8192) : EReal := if r = c then 0 else Ideal.exp (sim X r c * two)

/-- Row r's denominator. -/
def den (X : Rows) (r : Fin 8192) : EReal := ∑ c : Fin 8192, term X r c

/-- Row r's partner rows: r mod 4096 in the first half and in the second. -/
def rowLo (r : Fin 8192) : Fin 8192 := ⟨r.val % 4096, by omega⟩
def rowHi (r : Fin 8192) : Fin 8192 := ⟨r.val % 4096 + 4096, by omega⟩

/-- The similarity of the matching pair row r belongs to. -/
def pos (X : Rows) (r : Fin 8192) : EReal := ∑ k : Fin 1024, X (ix2 (rowLo r) k) * X (ix2 (rowHi r) k)

/-- Row r's partial loss. -/
def lossPartial (X : Rows) (r : Fin 8192) : EReal := -(Ideal.div (pos X r) half - Ideal.log (den X r))

/-- Column q of column block j. -/
def col (j : Fin 8) (q : Fin 1024) : Fin 8192 := ⟨1024 * j.val + q.val, by omega⟩

/-- The literal patterns denote the reals 2, 1/2 and 1. -/
private theorem two_eq : two = ((2 : ℝ) : EReal) := by
  simp [two, Ideal.ofBits, Ideal.ieee, -EReal.coe_mul]; norm_num

private theorem half_eq : half = ((1 / 2 : ℝ) : EReal) := by
  simp [half, Ideal.ofBits, Ideal.ieee, -EReal.coe_mul]; norm_num

private theorem one_eq : one = 1 := by
  simp [one, Ideal.ofBits, Ideal.ieee, -EReal.coe_mul]; norm_num

/-- A column is its block and its place in the block: c = 1024 (c / 1024) + c mod 1024. -/
private def colEquiv : Fin 8 × Fin 1024 ≃ Fin 8192 where
  toFun p := col p.1 p.2
  invFun c := (⟨c.val / 1024, by omega⟩, ⟨c.val % 1024, by omega⟩)
  left_inv p := by
    rcases p with ⟨j, q⟩
    refine Prod.ext (Fin.ext ?_) (Fin.ext ?_)
    · show (1024 * j.val + q.val) / 1024 = j.val
      omega
    · show (1024 * j.val + q.val) % 1024 = q.val
      omega
  right_inv c := by
    refine Fin.ext ?_
    show 1024 * (c.val / 1024) + c.val % 1024 = c.val
    omega

/-- The denominator summed block by block. -/
theorem den_blocks (X : Rows) (r : Fin 8192) : den X r = ∑ j : Fin 8, ∑ q : Fin 1024, term X r (col j q) := by
  unfold den
  rw [← Fintype.sum_prod_type' (fun j q => term X r (col j q))]
  exact (Fintype.sum_equiv colEquiv (fun p => term X r (col p.1 p.2)) (fun c => term X r c) (fun _ => rfl)).symm

/-- A term as the reference spells it: (1 - [r = c]) · exp (sim / (1/2)). -/
theorem term_masked (X : Rows) (r c : Fin 8192) :
    (one - (if r = c then (1 : EReal) else 0)) * Ideal.exp (Ideal.div (sim X r c) half) = term X r c := by
  unfold term
  by_cases h : r = c
  · rw [if_pos h, if_pos h, one_eq]
    have h11 : (1 : EReal) - 1 = 0 := by
      rw [← EReal.coe_one, ← EReal.coe_sub, sub_self, EReal.coe_zero]
    rw [h11, zero_mul]
  · have h2 : (1 / (1 / 2) : ℝ) = 2 := by norm_num
    rw [if_neg h, if_neg h, sub_zero, one_eq, one_mul, half_eq, Ideal.div_coe (by norm_num), h2, two_eq]

theorem sim_comm (X : Rows) (r c : Fin 8192) : sim X r c = sim X c r := by
  unfold sim
  exact Finset.sum_congr rfl (fun k _ => mul_comm _ _)

/-- The literal 0 the programs spell. -/
theorem zero_eq : Ideal.ofBits .f32 0x00000000#32 = 0 := Ideal.ofBits_zero_f32

end Cert.Spec

end
-- ==== Proof.KI.Payload.lean ====
/-
  The body's arithmetic, read entry by entry on the extended reals.

  With q the row block (1024 rows of X), k the column block's rows and s the column found in scratch, the stored column is
  s_p + the sum over q of [1024 i + p ≠ 1024 j + q] exp(2 <q_p, k_q>): the product into zeros is the plain sum of products, the
  transposed operand read at its swapped index, the two iotas offset by the blocks' origins, the lane sum a finite sum.
-/
import proofs.«153312_j70085276336663_1_alg».proof.Proof.Gen.KernelIdeal.Skeleton
import proofs.«153312_j70085276336663_1_alg».proof.Proof.LibPlainDot
import proofs.«153312_j70085276336663_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Payload

open Cert.KernelIdeal Cert.KernelIdeal.Gen
open Idealize.ShloMosaic Idealize.ShloMosaic.ValueIdx

/-- The two block origins plus the coordinates, as 32-bit words, compare equal exactly when they are equal as naturals:
    nothing wraps below 8 · 1024. -/
private theorem word_eq (a b : Nat) (ha : a < 8) (hb : b < 8) (p q : Fin 1024) :
    IntOp.cmpi .eq (IntOp.addi (Scalar.muli (BitVec.ofNat 32 a) 1024#32) (BitVec.ofNat 32 p.val))
        (IntOp.addi (Scalar.muli (BitVec.ofNat 32 b) 1024#32) (BitVec.ofNat 32 q.val))
      = if 1024 * a + p.val = 1024 * b + q.val then 1#1 else 0#1 := by
  have hp := p.isLt
  have hq := q.isLt
  have e1 : IntOp.addi (Scalar.muli (BitVec.ofNat 32 a) 1024#32) (BitVec.ofNat 32 p.val) = BitVec.ofNat 32 (1024 * a + p.val) := by
    apply BitVec.eq_of_toNat_eq
    simp only [IntOp.addi, Scalar.muli, IntOp.muli, BitVec.toNat_add, BitVec.toNat_mul, BitVec.toNat_ofNat]
    omega
  have e2 : IntOp.addi (Scalar.muli (BitVec.ofNat 32 b) 1024#32) (BitVec.ofNat 32 q.val) = BitVec.ofNat 32 (1024 * b + q.val) := by
    apply BitVec.eq_of_toNat_eq
    simp only [IntOp.addi, Scalar.muli, IntOp.muli, BitVec.toNat_add, BitVec.toNat_mul, BitVec.toNat_ofNat]
    omega
  rw [e1, e2]
  unfold IntOp.cmpi
  by_cases h : 1024 * a + p.val = 1024 * b + q.val
  · rw [if_pos h, h]; simp
  · rw [if_neg h]
    have : (BitVec.ofNat 32 (1024 * a + p.val) == BitVec.ofNat 32 (1024 * b + q.val)) = false := by
      rw [beq_eq_false_iff_ne]
      intro hh
      have := congrArg BitVec.toNat hh
      simp only [BitVec.toNat_ofNat] at this
      omega
    simp only [this]
    rfl

/-- A vector cast to a column reads, at (i, u), the vector at i. -/
private theorem castCol_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the rows: at row p, the sum over the columns q of the entry (p, q). -/
private theorem rowSum_apply (src : FVec Ideal S1024x1024 .f32) (h : S1024x1024.Reduces [1] S1024)
    (hφ : FKind.Formats .f32) (hacc : (0x00000000#32 : BitVec 32) = FKind.add.neutral .f32 hφ) (p : Fin 1024) :
    multiReduction (F := Ideal) .add [1] S1024 src 0x00000000#32 h hφ hacc (ix1 p) = ∑ q : Fin 1024, src (ix2 p q) := by
  rw [Ideal.multiReduction_add_single]
  refine Finset.sum_congr rfl fun q _ => congrArg src ?_
  funext a
  match a with
  | ⟨0, _⟩ => rfl
  | ⟨1, _⟩ => rfl

/-- The diagonal mask read at (p, q): the bit is 1 exactly when global row and global column coincide. -/
private theorem mask_apply (a b : Nat) (ha : a < 8) (hb : b < 8)
    (h0 : S1024x1024.Iotas .tc 32 [0]) (h1 : S1024x1024.Iotas .tc 32 [1]) (p q : Fin 1024) :
    cmpi .eq (addi (broadcast S1024x1024 (Scalar.muli (BitVec.ofNat 32 a) 1024#32)) (iota .tc S1024x1024 32 [0] h0))
        (addi (broadcast S1024x1024 (Scalar.muli (BitVec.ofNat 32 b) 1024#32)) (iota .tc S1024x1024 32 [1] h1)) (ix2 p q)
      = if 1024 * a + p.val = 1024 * b + q.val then 1#1 else 0#1 := by
  show IntOp.cmpi .eq (IntOp.addi (Scalar.muli (BitVec.ofNat 32 a) 1024#32) (iota .tc S1024x1024 32 [0] h0 (ix2 p q)))
      (IntOp.addi (Scalar.muli (BitVec.ofNat 32 b) 1024#32) (iota .tc S1024x1024 32 [1] h1 (ix2 p q))) = _
  rw [iota_single_apply, iota_single_apply]
  exact word_eq a b ha hb p q

/-- A select on a decided bit is the if. -/
private theorem select_ite {α : Type} (P : Prop) [Decidable P] (x y : α) :
    Scalar.select (if P then 1#1 else 0#1) x y = if P then x else y := by
  by_cases h : P
  · rw [if_pos h, if_pos h, select_one]
  · rw [if_neg h, if_neg h, select_zero]

/-- The exponentiated, scaled product read at (p, q): exp of twice the inner product of row p of the left block with row q
    of the right block. -/
private theorem score_apply (x0 x1 : Vec Ideal S1024x1024 .bf16) (hc : S1024x1024.ShapeCasts S1024x1024)
    (ht : S1024x1024.Transposes [1, 0] S1024x1024) (p q : Fin 1024) :
    exp (mulf
        (matmul (F := Ideal) (φ₁ := .bf16) (φ₂ := .bf16) dot_S1024x1024_S1024x1024_S1024x1024_1_0_0_1_n_n none (shapeCast S1024x1024 x0 hc)
          (transpose S1024x1024 [1, 0] (shapeCast S1024x1024 x1 hc) ht) (constant S1024x1024 .f32 0x00000000#32))
        (broadcast S1024x1024 (FloatOps.ofBits (F := Ideal) .f32 0x40000000#32))) (ix2 p q)
      = Ideal.exp ((∑ k : Fin 1024, x0 (ix2 p k) * x1 (ix2 q k)) * Cert.Spec.two) := by
  rw [shapeCast_self, shapeCast_self]
  show Ideal.exp (matmul (F := Ideal) (φ₁ := .bf16) (φ₂ := .bf16) dot_S1024x1024_S1024x1024_S1024x1024_1_0_0_1_n_n none x0
      (transpose S1024x1024 [1, 0] x1 ht) (constant S1024x1024 .f32 0x00000000#32) (ix2 p q) * Cert.Spec.two) = _
  refine congrArg (fun z => Ideal.exp (z * Cert.Spec.two)) ?_
  refine (PlainDot.matmul_zero_apply ⟨rfl, rfl, rfl, rfl, rfl, rfl⟩ none x0 _ p q).trans ?_
  refine Finset.sum_congr rfl fun k _ => ?_
  rw [transpose_ix2_apply]

/-- The cleared column. -/
theorem pay1_apply (p : Fin 1024) : k0_pay1 (F := Ideal) (ix2 p (0 : Fin 1)) = 0 := by
  unfold k0_pay1
  rw [shapeCast_self]
  exact Ideal.ofBits_zero_f32

/-- The stored column at row p. -/
theorem pay2_apply (i : grid0.Coords) (x0 x1 : Vec Ideal S1024x1024 .bf16) (xs : Vec Ideal S1024x1 .f32) (p : Fin 1024) :
    k0_pay2 i x0 x1 xs (ix2 p (0 : Fin 1))
      = xs (ix2 p (0 : Fin 1)) + ∑ q : Fin 1024,
          (if 1024 * (i 0).val + p.val = 1024 * (i 1).val + q.val then (0 : EReal)
           else Ideal.exp ((∑ k : Fin 1024, x0 (ix2 p k) * x1 (ix2 q k)) * Cert.Spec.two)) := by
  have ha : (i 0).val < 8 := (i 0).isLt
  have hb : (i 1).val < 8 := (i 1).isLt
  unfold k0_pay2
  rw [shapeCast_self]
  refine (addf_apply _ _ _).trans ?_
  refine congrArg (xs (ix2 p 0) + ·) ?_
  refine (castCol_apply _ _ p 0).trans ?_
  refine (rowSum_apply _ _ _ _ p).trans ?_
  refine Finset.sum_congr rfl fun q _ => ?_
  refine (select_apply _ _ _ _).trans ?_
  rw [mask_apply _ _ ha hb, select_ite, score_apply]
  have hz : broadcast S1024x1024 (FloatOps.ofBits (F := Ideal) .f32 0x00000000#32) (ix2 p q) = (0 : EReal) :=
    Ideal.ofBits_zero_f32
  rw [hz]

end Cert.KernelIdeal.Payload

end
-- ==== Proof.KI.Accum.lean ====
/-
  The denominators the region computes, on the extended reals.

  Point t = 8 i + j reads rows 1024 i .. 1024 i + 1023 of the matrix X (window 0) and rows 1024 j .. 1024 j + 1023 (window 1).
  After it the scratch column holds, at row p, the sum over the column blocks j' ≤ j of the terms of row 1024 i + p against
  the columns of block j'; at j = 7 that is the whole denominator of the row (the denominator summed block by block), and it
  is what the output block i receives. The output blocks tile the 8192 x 1 array, which therefore ends holding every row's
  denominator.
-/
import proofs.«153312_j70085276336663_1_alg».proof.Proof.KI.Pieces
import proofs.«153312_j70085276336663_1_alg».proof.Proof.KI.Payload
import proofs.«153312_j70085276336663_1_alg».proof.Proof.Spec
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The matrix of normalized rows as the region reads it. -/
abbrev Xk (c : Dev nD) : Cert.Spec.Rows := V m c main_v11

/-- Row p of the row block of point t, and column q of its column block, as rows of the matrix. -/
def rowOf (t : Fin cfg0.N) (p : Fin 1024) : Fin 8192 :=
  ⟨1024 * (t.val / 8) + p.val, by have h := t.isLt; have hN : cfg0.N = 64 := N_0; omega⟩
def colOf (t : Fin cfg0.N) (q : Fin 1024) : Fin 8192 := ⟨1024 * (t.val % 8) + q.val, by omega⟩

/-- The windows' block indices at point t = 8 i + j, decided over the grid: window 0 and the output window sit at row
    block i, window 1 at row block j, all at column block 0. -/
private theorem blockIdx : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Window 0's block at point t is the row block t / 8 of the matrix; window 1's the row block t % 8. -/
theorem qblk_apply (c : Dev nD) (t : Fin cfg0.N) (p k : Fin 1024) :
    (iblk m c 0 t : Vec Ideal S1024x1024 .bf16) (ix2 p k) = Xk m c (ix2 (rowOf t p) k) := by
  obtain ⟨e0, e1, -⟩ := blockIdx t
  unfold iblk
  rw [View.read_apply]
  show V m c main_v11 (((cfg0.win 0).blk t).view.emb (ix2 p k)) = V m c main_v11 (ix2 (rowOf t p) k)
  congr 1
  funext a
  apply Fin.ext
  match a with
  | ⟨0, _⟩ => show win0_0.index t (0 : Fin 2) * 1024 + 1 * p.val = 1024 * (t.val / 8) + p.val; omega
  | ⟨1, _⟩ => show win0_0.index t (1 : Fin 2) * 1024 + 1 * k.val = k.val; omega

theorem kblk_apply (c : Dev nD) (t : Fin cfg0.N) (q k : Fin 1024) :
    (iblk m c 1 t : Vec Ideal S1024x1024 .bf16) (ix2 q k) = Xk m c (ix2 (colOf t q) k) := by
  obtain ⟨-, -, e0, e1, -⟩ := blockIdx t
  unfold iblk
  rw [View.read_apply]
  show V m c main_v11 (((cfg0.win 1).blk t).view.emb (ix2 q k)) = V m c main_v11 (ix2 (colOf t q) k)
  congr 1
  funext a
  apply Fin.ext
  match a with
  | ⟨0, _⟩ => show win0_1.index t (0 : Fin 2) * 1024 + 1 * q.val = 1024 * (t.val % 8) + q.val; omega
  | ⟨1, _⟩ => show win0_1.index t (1 : Fin 2) * 1024 + 1 * k.val = k.val; omega

/-- The two input blocks of point t: 1024 x 1024 blocks of bf16 entries. -/
private abbrev qblk (c : Dev nD) (t : Fin cfg0.N) : Vec Ideal S1024x1024 .bf16 := iblk m c 0 t
private abbrev kblk (c : Dev nD) (t : Fin cfg0.N) : Vec Ideal S1024x1024 .bf16 := iblk m c 1 t

/-- The coordinates of point t = 8 i + j are (i, j). -/
private theorem coordsAt : ∀ t : Fin cfg0.N, ((grid0.coords t) 0).val = t.val / 8 ∧ ((grid0.coords t) 1).val = t.val % 8 :=
  (by decide +kernel : ∀ t : Fin grid0.N, _)

/-- One point's contribution at row p: with the row block's row p being row r of X and the column block's row q being
    column (j, q), the masked exponentials summed over q are the terms of row r against the columns of block j. The mask
    compares the global row number with the global column number, which is the diagonal test of the term. -/
private theorem blockSum (X : Cert.Spec.Rows) (x0 x1 : Vec Ideal S1024x1024 .bf16) (i0 i1 : ℕ) (r : Fin 8192) (j : Fin 8)
    (p : Fin 1024) (hr : r.val = 1024 * i0 + p.val) (hj : j.val = i1)
    (h0 : ∀ k : Fin 1024, x0 (ix2 p k) = X (ix2 r k))
    (h1 : ∀ q k : Fin 1024, x1 (ix2 q k) = X (ix2 (Cert.Spec.col j q) k)) :
    (∑ q : Fin 1024, (if 1024 * i0 + p.val = 1024 * i1 + q.val then (0 : EReal)
        else Ideal.exp ((∑ k : Fin 1024, x0 (ix2 p k) * x1 (ix2 q k)) * Cert.Spec.two)))
      = ∑ q : Fin 1024, Cert.Spec.term X r (Cert.Spec.col j q) := by
  refine Finset.sum_congr rfl fun q _ => ?_
  unfold Cert.Spec.term Cert.Spec.sim
  have hc : (1024 * i0 + p.val = 1024 * i1 + q.val) ↔ r = Cert.Spec.col j q := by
    rw [Fin.ext_iff]
    show _ ↔ r.val = 1024 * j.val + q.val
    omega
  have hs : (∑ k : Fin 1024, x0 (ix2 p k) * x1 (ix2 q k)) = ∑ k : Fin 1024, X (ix2 r k) * X (ix2 (Cert.Spec.col j q) k) :=
    Finset.sum_congr rfl fun k _ => by rw [h0 k, h1 q k]
  rw [hs]
  exact if_congr hc rfl rfl

/-- The sum over the column blocks up to the first is the first block's. -/
private theorem sum_upto_first (f : Fin 8 → EReal) (a : ℕ) (ha : a < 8) (h0 : a = 0) :
    (∑ j : Fin 8, if j.val ≤ a then f j else 0) = f ⟨a, ha⟩ := by
  have e : ∀ j : Fin 8, (if j.val ≤ a then f j else 0) = if j = ⟨a, ha⟩ then f j else 0 := fun j =>
    if_congr (by rw [Fin.ext_iff]; show _ ↔ j.val = a; omega) rfl rfl
  rw [Finset.sum_congr rfl fun j _ => e j, Finset.sum_ite_eq' Finset.univ (⟨a, ha⟩ : Fin 8) f, if_pos (Finset.mem_univ _)]

/-- The sum over the column blocks up to a > 0 is the sum up to a - 1 plus block a's. -/
private theorem sum_upto_step (f : Fin 8 → EReal) (a : ℕ) (ha : a < 8) (h0 : a ≠ 0) :
    (∑ j : Fin 8, if j.val ≤ a then f j else 0) = (∑ j : Fin 8, if j.val ≤ a - 1 then f j else 0) + f ⟨a, ha⟩ := by
  have e : ∀ j : Fin 8, (if j.val ≤ a then f j else 0)
      = (if j.val ≤ a - 1 then f j else 0) + (if j = ⟨a, ha⟩ then f j else 0) := by
    intro j
    by_cases h1 : j.val ≤ a - 1
    · have hne : j ≠ ⟨a, ha⟩ := fun e => by rw [e] at h1; dsimp only at h1; omega
      rw [if_pos h1, if_pos (by omega), if_neg hne, add_zero]
    · by_cases h2 : j.val = a
      · have he : j = ⟨a, ha⟩ := Fin.ext h2
        rw [if_neg h1, if_pos (by omega), if_pos he, zero_add]
      · have hne : j ≠ ⟨a, ha⟩ := fun e => h2 (congrArg Fin.val e)
        rw [if_neg h1, if_neg (by omega), if_neg hne, add_zero]
  rw [Finset.sum_congr rfl fun j _ => e j, Finset.sum_add_distrib, Finset.sum_ite_eq' Finset.univ (⟨a, ha⟩ : Fin 8) f,
    if_pos (Finset.mem_univ _)]

/-- The scratch column after point n, by induction on the point: at a first column block the cleared column plus block
    0's terms; otherwise what the point before left, which is in the same row block, plus this block's terms. -/
private theorem scratch_at (c : Dev nD) : ∀ (n : ℕ) (hn : n < cfg0.N) (p : Fin 1024),
    (outsAt0 m c n hn).2 (ix2 p (0 : Fin 1))
      = ∑ j : Fin 8, if j.val ≤ n % 8 then ∑ q : Fin 1024, Cert.Spec.term (Xk m c) (rowOf ⟨n, hn⟩ p) (Cert.Spec.col j q) else 0 := by
  intro n
  induction n using Nat.strong_induction_on with
  | _ n ih =>
    intro hn p
    have hN : cfg0.N = 64 := N_0
    obtain ⟨ec0, ec1⟩ := coordsAt ⟨n, hn⟩
    have hblk : (∑ q : Fin 1024, (if 1024 * ((grid0.coords ⟨n, hn⟩) 0).val + p.val = 1024 * ((grid0.coords ⟨n, hn⟩) 1).val + q.val then (0 : EReal)
          else Ideal.exp ((∑ k : Fin 1024, qblk m c ⟨n, hn⟩ (ix2 p k) * kblk m c ⟨n, hn⟩ (ix2 q k)) * Cert.Spec.two)))
        = ∑ q : Fin 1024, Cert.Spec.term (Xk m c) (rowOf ⟨n, hn⟩ p) (Cert.Spec.col ⟨n % 8, Nat.mod_lt _ (by decide)⟩ q) :=
      blockSum (Xk m c) (qblk m c ⟨n, hn⟩) (kblk m c ⟨n, hn⟩) _ _ (rowOf ⟨n, hn⟩ p) ⟨n % 8, Nat.mod_lt _ (by decide)⟩ p
        (by show 1024 * (n / 8) + p.val = _; rw [ec0]) ec1.symm
        (fun k => qblk_apply m c ⟨n, hn⟩ p k) (fun q k => kblk_apply m c ⟨n, hn⟩ q k)
    by_cases h0 : n % 8 = 0
    · have h1 : ¬n % 8 = 7 := by omega
      rw [outsAt0_A m c ⟨n, hn⟩ h0 h1]
      dsimp only
      refine (congrFun (sout0_A_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩)) (ix2 p (0 : Fin 1))).trans ?_
      refine (Payload.pay2_apply (grid0.coords ⟨n, hn⟩) (qblk m c ⟨n, hn⟩) (kblk m c ⟨n, hn⟩) (k0_pay1 (F := Ideal)) p).trans ?_
      rw [Payload.pay1_apply p, zero_add, hblk]
      exact (sum_upto_first (fun j => ∑ q : Fin 1024, Cert.Spec.term (Xk m c) (rowOf ⟨n, hn⟩ p) (Cert.Spec.col j q)) (n % 8) (Nat.mod_lt _ (by decide)) h0).symm
    · have hn' : n - 1 < cfg0.N := by omega
      have hrow : rowOf ⟨n - 1, hn'⟩ p = rowOf ⟨n, hn⟩ p := by
        apply Fin.ext
        show 1024 * ((n - 1) / 8) + p.val = 1024 * (n / 8) + p.val
        omega
      have hprev := ih (n - 1) (by omega) hn' p
      rw [hrow, show (n - 1) % 8 = n % 8 - 1 from by omega] at hprev
      have hlast : (∑ j : Fin 8, if j.val ≤ n % 8 then ∑ q : Fin 1024, Cert.Spec.term (Xk m c) (rowOf ⟨n, hn⟩ p) (Cert.Spec.col j q) else 0)
          = (∑ j : Fin 8, if j.val ≤ n % 8 - 1 then ∑ q : Fin 1024, Cert.Spec.term (Xk m c) (rowOf ⟨n, hn⟩ p) (Cert.Spec.col j q) else 0)
            + ∑ q : Fin 1024, Cert.Spec.term (Xk m c) (rowOf ⟨n, hn⟩ p) (Cert.Spec.col ⟨n % 8, Nat.mod_lt _ (by decide)⟩ q) :=
        sum_upto_step (fun j => ∑ q : Fin 1024, Cert.Spec.term (Xk m c) (rowOf ⟨n, hn⟩ p) (Cert.Spec.col j q)) (n % 8) (Nat.mod_lt _ (by decide)) h0
      by_cases h1 : n % 8 = 7
      · rw [outsAt0_C m c ⟨n, hn⟩ h0 h1]
        dsimp only
        refine (congrFun (sout0_C_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h1) (iblk m c 0 ⟨n, hn⟩) (iblk m c 1 ⟨n, hn⟩) (outsAt0 m c (n - 1) hn').2) (ix2 p (0 : Fin 1))).trans ?_
        refine (Payload.pay2_apply (grid0.coords ⟨n, hn⟩) (qblk m c ⟨n, hn⟩) (kblk m c ⟨n, hn⟩) (outsAt0 m c (n - 1) hn').2 p).trans ?_
        rw [hprev, hblk, hlast]
      · rw [outsAt0_B m c ⟨n, hn⟩ h0 h1]
        dsimp only
        refine (congrFun (sout0_B_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (outsAt0 m c (n - 1) hn').2) (ix2 p (0 : Fin 1))).trans ?_
        refine (Payload.pay2_apply (grid0.coords ⟨n, hn⟩) (qblk m c ⟨n, hn⟩) (kblk m c ⟨n, hn⟩) (outsAt0 m c (n - 1) hn').2 p).trans ?_
        rw [hprev, hblk, hlast]

/-- The scratch column after point t. -/
theorem scratch_apply (c : Dev nD) (t : Fin cfg0.N) (p : Fin 1024) :
    (outsAt0 m c t.val t.isLt).2 (ix2 p (0 : Fin 1))
      = ∑ j : Fin 8, if j.val ≤ t.val % 8 then ∑ q : Fin 1024, Cert.Spec.term (Xk m c) (rowOf t p) (Cert.Spec.col j q) else 0 := by
  exact scratch_at m c t.val t.isLt p

/-- The output block at a point of the last column block: the rows' denominators. -/
theorem out_apply (c : Dev nD) (t : Fin cfg0.N) (h : t.val % 8 = 7) (p : Fin 1024) :
    (outsAt0 m c t.val t.isLt).1 (ix2 p (0 : Fin 1)) = Cert.Spec.den (Xk m c) (rowOf t p) := by
  have h0 : ¬t.val % 8 = 0 := by omega
  have hs := scratch_apply m c t p
  rw [outsAt0_C m c t h0 h] at hs ⊢
  dsimp only at hs ⊢
  have eo := congrFun (out0_C_2_eq (F := Ideal) c (grid0.coords t) (ms0_0 t) (hs0_0 t) (ms0_1 t) (hs0_1 t) (ms0_2 t) (hs0_2 t) scM0_0 (Memref.isWhole_whole _) (fun h' => h0 ((hcond0_0 t).mp h')) ((hcond0_1 t).mpr h) (iblk m c 0 t) (iblk m c 1 t) (outsAt0 m c (t.val - 1) (Nat.lt_of_le_of_lt (Nat.sub_le _ _) t.isLt)).2) (ix2 p (0 : Fin 1))
  have es := congrFun (sout0_C_0_eq (F := Ideal) c (grid0.coords t) (ms0_0 t) (hs0_0 t) (ms0_1 t) (hs0_1 t) (ms0_2 t) (hs0_2 t) scM0_0 (Memref.isWhole_whole _) (fun h' => h0 ((hcond0_0 t).mp h')) ((hcond0_1 t).mpr h) (iblk m c 0 t) (iblk m c 1 t) (outsAt0 m c (t.val - 1) (Nat.lt_of_le_of_lt (Nat.sub_le _ _) t.isLt)).2) (ix2 p (0 : Fin 1))
  refine (eo.trans es.symm).trans (hs.trans ?_)
  rw [Cert.Spec.den_blocks]
  exact Finset.sum_congr rfl fun j _ => if_pos (by have := j.isLt; omega)

/-- Every row's denominator, as the 8192 x 1 array. -/
def G12 (c : Dev nD) : (⟨S8192x1, .f32⟩ : BufTy).Contents (Elt Ideal) :=
  fun y => Cert.Spec.den (Xk m c) ⟨(y 0).val, idx2_lt0 y⟩

theorem G12_apply (c : Dev nD) (r : Fin 8192) : G12 m c (ix2 r (0 : Fin 1)) = Cert.Spec.den (Xk m c) r := rfl

/-- The output block of a point of the last column block, at any index of the block. -/
private theorem out_at (c : Dev nD) (t : Fin cfg0.N) (h : t.val % 8 = 7) (y : S1024x1.Idx) :
    (outsAt0 m c t.val t.isLt).1 y = Cert.Spec.den (Xk m c) (rowOf t ⟨(y 0).val, idx2_lt0 y⟩) := by
  obtain ⟨p, q, rfl⟩ : ∃ (p : Fin 1024) (q : Fin 1), y = ix2 p q := ⟨y 0, y 1, eq_ix2 y⟩
  obtain rfl : q = 0 := Subsingleton.elim _ _
  exact out_apply m c t h p

/-- What a point of the last column block writes back is its block of the array of denominators: row p of output block
    t / 8 is row 1024 (t / 8) + p of the array. -/
private theorem flushed12 (c : Dev nD) (t : Fin cfg0.N) (h : t.val % 8 = 7) :
    (dats m 0 c).flushed 2 t = ((cfg0.win 2).blk t).view.read (Elt Ideal) (G12 m c) := by
  obtain ⟨-, -, -, -, e0, e1⟩ := blockIdx t
  show (cfg0.win 2).cut (grid0.coords t) ((dats m 0 c).after 2 t) = _
  rw [after0_2]
  funext y
  rw [View.read_apply]
  show (outsAt0 m c t.val t.isLt).1 ((cfg0.win 2).xinj (grid0.coords t) y) = G12 m c (((cfg0.win 2).blk t).view.emb y)
  refine (out_at m c t h _).trans ?_
  show Cert.Spec.den (Xk m c) _ = Cert.Spec.den (Xk m c) _
  congr 1
  apply Fin.ext
  show 1024 * (t.val / 8) + (y 0).val = win0_2.index t (0 : Fin 2) * 1024 + 1 * (y 0).val
  omega

/-- An index of the array is in point t's output block iff each coordinate is in the block's range on its axis. -/
private theorem mem_outBlock (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v12).slice (win0_2.rect t)).set ↔ _
  rw [View.set_slice_whole, Rect.mem_set_unit]
  exact Iff.rfl

/-- Row r of the array is in the output block of point 8 (r / 1024) + 7, which writes its block back. -/
private theorem cover12 (i : S8192x1.Idx) :
    ∃ t : Fin cfg0.N, (cfg0.win 2).flush t = true ∧ i ∈ ((cfg0.win 2).blk t).view.set := by
  have hN : cfg0.N = 64 := N_0
  have hi0 : (i 0).val < 8192 := idx2_lt0 i
  have hi1 : (i 1).val < 1 := idx2_lt1 i
  have ht : 8 * ((i 0).val / 1024) + 7 < cfg0.N := by omega
  obtain ⟨-, -, -, -, e0, e1⟩ := blockIdx ⟨8 * ((i 0).val / 1024) + 7, ht⟩
  have e0' : win0_2.index ⟨8 * ((i 0).val / 1024) + 7, ht⟩ (0 : Fin 2) = (8 * ((i 0).val / 1024) + 7) / 8 := e0
  refine ⟨⟨8 * ((i 0).val / 1024) + 7, ht⟩, (flush0_2 _).mpr (by show (8 * ((i 0).val / 1024) + 7) % 8 = 7; omega), ?_⟩
  rw [mem_outBlock]
  intro a
  match a with
  | ⟨0, _⟩ =>
    show win0_2.index ⟨8 * ((i 0).val / 1024) + 7, ht⟩ (0 : Fin 2) * 1024 ≤ (i 0).val ∧ (i 0).val < win0_2.index ⟨8 * ((i 0).val / 1024) + 7, ht⟩ (0 : Fin 2) * 1024 + 1024
    omega
  | ⟨1, _⟩ =>
    show win0_2.index ⟨8 * ((i 0).val / 1024) + 7, ht⟩ (1 : Fin 2) * 1 ≤ (i 1).val ∧ (i 1).val < win0_2.index ⟨8 * ((i 0).val / 1024) + 7, ht⟩ (1 : Fin 2) * 1 + 1
    omega

/-- The output array after the run. -/
theorem final12 (c : Dev nD) : (dats m 0 c).arrAt 2 cfg0.N = G12 m c := by
  exact (dats m 0 c).arrAt_eq_of_cover 2 (G12 m c) (fun t hf => flushed12 m c t ((flush0_2 t).mp hf)) cover12

end Cert.KernelIdeal.Frame

end
-- ==== Proof.KI.LossOf.lean ====
/-
  The host lines after the region as pure functions, and the partial loss read row by row on the extended reals.

  With D the column of denominators and z0, z1 the two normalized inputs, row r's partial loss is
  -(d_{r mod 4096} / (1/2) - log D_r), d_i = the sum over k of z0(i, k) z1(i, k): the concatenation of d with itself reads d
  at r mod 4096 in either half; with X the two normalized inputs one above the other, d_{r mod 4096} is the similarity of the
  matching pair row r belongs to.
-/
import proofs.«153312_j70085276336663_1_alg».proof.Proof.Gen.KernelIdeal
import proofs.«153312_j70085276336663_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Frame

open Cert.KernelIdeal Cert.KernelIdeal.Gen
open Idealize.ShloMosaic Idealize.ShloMosaic.ValueIdx

/-- The partial losses as the lines after the region compute them from the denominators `D` (the 8192 x 1 array) and the
    two normalized inputs. -/
def lossOf (D : (⟨S8192x1, .f32⟩ : BufTy).Contents (Elt Ideal)) (z0 z1 : (⟨S4096x1024, .f32⟩ : BufTy).Contents (Elt Ideal)) :
    (⟨S8192, .f32⟩ : BufTy).Contents (Elt Ideal) :=
  Host.negf (F := Ideal) (subf
    (Host.divf (F := Ideal) (concatenate S8192 0 [⟨S4096, Host.reduceAdd (F := Ideal) (mulf z0 z1) (constant (F := Ideal) S_ .f32 0x00000000#32) reducesTo_S4096x1024_S4096_d1 h_S_⟩,
        ⟨S4096, Host.reduceAdd (F := Ideal) (mulf z0 z1) (constant (F := Ideal) S_ .f32 0x00000000#32) reducesTo_S4096x1024_S4096_d1 h_S_⟩] concatenates_S4096_S4096_S8192_d0)
      (broadcastInDim S8192 ![] bcast_S_S8192 (constant (F := Ideal) S_ .f32 0x3F000000#32)))
    (Host.log (F := Ideal) (shapeCast S8192 D shapeCasts_S8192x1_S8192)))

/-- The mean of 8192 partial losses, as the lines compute it. -/
def meanOf (v : (⟨S8192, .f32⟩ : BufTy).Contents (Elt Ideal)) : (⟨S_, .f32⟩ : BufTy).Contents (Elt Ideal) :=
  Host.divf (F := Ideal) (Host.reduceAdd (F := Ideal) v (constant (F := Ideal) S_ .f32 0x00000000#32) reducesTo_S8192_S_d0 h_S_) (constant (F := Ideal) S_ .f32 0x46000000#32)

/-- The column of denominators recast as a vector reads the column at the same row. -/
private theorem castD_apply (D : (⟨S8192x1, .f32⟩ : BufTy).Contents (Elt Ideal)) (r : Fin 8192) :
    shapeCast S8192 D shapeCasts_S8192x1_S8192 (ix1 r) = D (ix2 r (0 : Fin 1)) := by
  refine shapeCast_apply D shapeCasts_S8192x1_S8192 (ix1 r) (ix2 r (0 : Fin 1)) ?_
  rw [Shape.rowMajor_val_two, Shape.rowMajor_val_one]
  show r.val * 1 + 0 = r.val
  omega

/-- The literal 1/2 broadcast to the vector reads 1/2 everywhere. -/
private theorem halfVec_apply (r : Fin 8192) :
    broadcastInDim S8192 ![] bcast_S_S8192 (constant (F := Ideal) S_ .f32 0x3F000000#32) (ix1 r)
      = Ideal.ofBits .f32 0x3F000000#32 :=
  broadcastInDim_apply _ bcast_S_S8192 (constant (F := Ideal) S_ .f32 0x3F000000#32) (ix1 r) ix0 (fun a => a.elim0)

/-- A vector joined with itself reads the vector at the row modulo its length. -/
private theorem selfJoin_apply (d : (⟨S4096, .f32⟩ : BufTy).Contents (Elt Ideal)) (r : Fin 8192) :
    concatenate S8192 0 [⟨S4096, d⟩, ⟨S4096, d⟩] concatenates_S4096_S4096_S8192_d0 (ix1 r)
      = d (ix1 (⟨r.val % 4096, Nat.mod_lt _ (by decide)⟩ : Fin 4096)) := by
  by_cases hr : r.val < 4096
  · refine concatenate_pair_apply_left (0 : Fin 1) d d concatenates_S4096_S4096_S8192_d0 (ix1 r) rfl _ ?_
    intro b
    match b with
    | ⟨0, _⟩ =>
      show r.val % 4096 = r.val
      omega
  · refine concatenate_pair_apply_right (0 : Fin 1) d d concatenates_S4096_S4096_S8192_d0 (ix1 r) rfl rfl _ ?_ ?_
    · intro b hb
      match b with
      | ⟨0, _⟩ => exact absurd rfl hb
    · show r.val % 4096 + 4096 = r.val
      have := r.isLt
      omega

/-- The two inputs one above the other read the first input in the upper half. -/
private theorem rows_lo (z0 z1 : (⟨S4096x1024, .f32⟩ : BufTy).Contents (Elt Ideal)) (p : Fin 4096) (k : Fin 1024) :
    concatenate S8192x1024 0 [⟨S4096x1024, z0⟩, ⟨S4096x1024, z1⟩] concatenates_S4096x1024_S4096x1024_S8192x1024_d0
      (ix2 (⟨p.val, by omega⟩ : Fin 8192) k) = z0 (ix2 p k) := by
  refine concatenate_pair_apply_left (α := EReal) (t := S8192x1024) (s₁ := S4096x1024) (s₂ := S4096x1024) (0 : Fin 2) z0 z1
    concatenates_S4096x1024_S4096x1024_S8192x1024_d0 (ix2 (⟨p.val, by omega⟩ : Fin 8192) k) rfl (ix2 p k) ?_
  intro b
  match b with
  | ⟨0, _⟩ => rfl
  | ⟨1, _⟩ => rfl

/-- … and the second input in the lower half. -/
private theorem rows_hi (z0 z1 : (⟨S4096x1024, .f32⟩ : BufTy).Contents (Elt Ideal)) (p : Fin 4096) (k : Fin 1024) :
    concatenate S8192x1024 0 [⟨S4096x1024, z0⟩, ⟨S4096x1024, z1⟩] concatenates_S4096x1024_S4096x1024_S8192x1024_d0
      (ix2 (⟨p.val + 4096, by omega⟩ : Fin 8192) k) = z1 (ix2 p k) := by
  refine concatenate_pair_apply_right (α := EReal) (t := S8192x1024) (s₁ := S4096x1024) (s₂ := S4096x1024) (0 : Fin 2) z0 z1
    concatenates_S4096x1024_S4096x1024_S8192x1024_d0 (ix2 (⟨p.val + 4096, by omega⟩ : Fin 8192) k) rfl rfl (ix2 p k) ?_ ?_
  · intro b hb
    match b with
    | ⟨0, _⟩ => exact absurd rfl hb
    | ⟨1, _⟩ => rfl
  · rfl

/-- The row sums of the product of the two inputs. -/
private theorem rowDot_apply (z0 z1 : (⟨S4096x1024, .f32⟩ : BufTy).Contents (Elt Ideal)) (p : Fin 4096) :
    Host.reduceAdd (F := Ideal) (mulf z0 z1) (constant (F := Ideal) S_ .f32 0x00000000#32) reducesTo_S4096x1024_S4096_d1 h_S_ (ix1 p)
      = ∑ k : Fin 1024, z0 (ix2 p k) * z1 (ix2 p k) := by
  generalize hy : mulf (F := Ideal) (s := S4096x1024) (φ := .f32) z0 z1 = y0
  simp only [Host.reduceAdd, Ideal.hostReduceAdd_def]
  rw [Ideal.hostReduceAdd_single reducesTo_S4096x1024_S4096_d1 (by decide)]
  rw [constant_apply, Ideal.ofBits_zero_f32, zero_add]
  refine Finset.sum_congr rfl fun k _ => ?_
  subst hy
  show (mulf (F := Ideal) (s := S4096x1024) (φ := .f32) z0 z1) _ = (mulf (F := Ideal) (s := S4096x1024) (φ := .f32) z0 z1) (ix2 p k)
  exact congrArg (mulf (F := Ideal) (s := S4096x1024) (φ := .f32) z0 z1) (funext fun a => Fin.ext (by match a with | ⟨0, _⟩ => rfl | ⟨1, _⟩ => rfl))

/-- Row r's partial loss is the specification's, when `D` holds the rows' denominators and `X` is the two normalized inputs
    one above the other. -/
theorem lossOf_apply (D : (⟨S8192x1, .f32⟩ : BufTy).Contents (Elt Ideal)) (z0 z1 : (⟨S4096x1024, .f32⟩ : BufTy).Contents (Elt Ideal))
    (X : Cert.Spec.Rows)
    (hX : X = concatenate S8192x1024 0 [⟨S4096x1024, z0⟩, ⟨S4096x1024, z1⟩] concatenates_S4096x1024_S4096x1024_S8192x1024_d0)
    (hD : ∀ r : Fin 8192, D (ix2 r (0 : Fin 1)) = Cert.Spec.den X r) (r : Fin 8192) :
    lossOf D z0 z1 (ix1 r) = Cert.Spec.lossPartial X r := by
  subst hX
  unfold lossOf Cert.Spec.lossPartial
  show -(Ideal.div (concatenate S8192 0 [⟨S4096, _⟩, ⟨S4096, _⟩] concatenates_S4096_S4096_S8192_d0 (ix1 r))
      (broadcastInDim S8192 ![] bcast_S_S8192 (constant (F := Ideal) S_ .f32 0x3F000000#32) (ix1 r))
      - Ideal.log (shapeCast S8192 D shapeCasts_S8192x1_S8192 (ix1 r))) = _
  rw [selfJoin_apply, halfVec_apply, castD_apply, hD r, rowDot_apply]
  unfold Cert.Spec.pos
  refine congrArg (fun t => -(Ideal.div t _ - _)) (Finset.sum_congr rfl fun k _ => ?_)
  have e0 := rows_lo z0 z1 ⟨r.val % 4096, Nat.mod_lt _ (by decide)⟩ k
  have e1 := rows_hi z0 z1 ⟨r.val % 4096, Nat.mod_lt _ (by decide)⟩ k
  exact (congrArg₂ (· * ·) e0 e1).symm

end Cert.KernelIdeal.Frame

end
-- ==== Proof.KI.FrameClaim.lean ====
/-
  The frame claim: the run leaves the two argument arrays as it found them. Neither is an array of the pipeline, no host
  line before or after the region writes them, and the region touches only its windows' arrays.
-/
import proofs.«153312_j70085276336663_1_alg».proof.Proof.KI.Frame
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem end_arg0 (c : Dev nD) :
    Pipeline.afterTail₀ cfgs (dats m) 0 (V0 m) [hostOps1] c main_arg0 = m ((c.tc : Thread nD τ).loc main_arg0) := by
  show StableHlo.after hostOps1 _ (Proc.devRef .tc main_arg0) = _
  after_results
  rw [Pipeline.withArrays_of_ne (cfgs 0).spec c (V0 m c) _ main_arg0 (fun w => by fin_cases w <;> decide)]
  show V m c main_arg0 = _
  dsimp only [V, V0, pre]
  simp only [hostOps0, hostOps0_1, hostOps0_2, hostOps0_3, List.flatten_cons, List.flatten_nil, List.append_nil, List.cons_append, List.nil_append]
  after_results

theorem end_arg1 (c : Dev nD) :
    Pipeline.afterTail₀ cfgs (dats m) 0 (V0 m) [hostOps1] c main_arg1 = m ((c.tc : Thread nD τ).loc main_arg1) := by
  show StableHlo.after hostOps1 _ (Proc.devRef .tc main_arg1) = _
  after_results
  rw [Pipeline.withArrays_of_ne (cfgs 0).spec c (V0 m c) _ main_arg1 (fun w => by fin_cases w <;> decide)]
  show V m c main_arg1 = _
  dsimp only [V, V0, pre]
  simp only [hostOps0, hostOps0_1, hostOps0_2, hostOps0_3, List.flatten_cons, List.flatten_nil, List.append_nil, List.cons_append, List.nil_append]
  after_results

/-- THE FRAME, at any instance: every weakly fair execution of @main terminates, nothing faulting, and the argument arrays
    end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of _ rfl (fun w => by fin_cases w <;> decide))).trans (end_arg0 m c),
     ((h c).2 main_arg1 (Pipeline.mem_restRefs_of _ rfl (fun w => by fin_cases w <;> decide))).trans (end_arg1 m c)⟩)
    (run_main m ρ)

end Cert.KernelIdeal.Frame

end
-- ==== Proof.KI.Tail.lean ====
/-
  The host lines after the region, on the extended reals: the three results as functions of the output array and of the
  two normalized inputs, and the arguments unchanged; then the run read at the five buffers the claims name.

  The partial loss of row r is the specification's function of the matrix of normalized rows (the region reads that matrix
  after a change of float format, which is the identity on the extended reals); the two scalar results are its mean.
-/
import proofs.«153312_j70085276336663_1_alg».proof.Proof.KI.Accum
import proofs.«153312_j70085276336663_1_alg».proof.Proof.KI.LossOf
import proofs.«153312_j70085276336663_1_alg».proof.Proof.KI.FrameClaim
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- What the region's exit and the lines after it leave in a buffer. -/
abbrev Wend (c : Dev nD) (b : Ref sig .tc) : Buf (Elt Ideal) ((c.tc : Thread nD τ).loc b) :=
  Pipeline.afterTail₀ cfgs (dats m) 0 (V0 m) [hostOps1] c b

/-- The partial losses the program returns. -/
def lossK (c : Dev nD) : (⟨S8192, .f32⟩ : BufTy).Contents (Elt Ideal) := lossOf (G12 m c) (V m c main_v4) (V m c main_v9)

theorem end_v21 (c : Dev nD) : Wend m c main_v21 = lossK m c := by
  unfold lossK
  show StableHlo.after hostOps1 _ (Proc.devRef .tc main_v21) = _
  after_results
  rw [Pipeline.withArrays_of_ne (cfgs 0).spec c (V0 m c) _ main_v4 (fun w => by fin_cases w <;> decide),
    Pipeline.withArrays_of_ne (cfgs 0).spec c (V0 m c) _ main_v9 (fun w => by fin_cases w <;> decide)]
  rw [show Pipeline.withArrays (cfgs 0).spec c (V0 m c) (fun w => (dats m 0 c).arrAt w (cfgs 0).N) (Proc.tc.devRef main_v12) = G12 m c from
    (withArrays_out (dats m) c (V0 m c)).trans (final12 m c)]
  rfl

theorem end_v25 (c : Dev nD) : Wend m c main_v25 = meanOf (lossK m c) := by
  unfold lossK
  show StableHlo.after hostOps1 _ (Proc.devRef .tc main_v25) = _
  after_results
  rw [Pipeline.withArrays_of_ne (cfgs 0).spec c (V0 m c) _ main_v4 (fun w => by fin_cases w <;> decide),
    Pipeline.withArrays_of_ne (cfgs 0).spec c (V0 m c) _ main_v9 (fun w => by fin_cases w <;> decide)]
  rw [show Pipeline.withArrays (cfgs 0).spec c (V0 m c) (fun w => (dats m 0 c).arrAt w (cfgs 0).N) (Proc.tc.devRef main_v12) = G12 m c from
    (withArrays_out (dats m) c (V0 m c)).trans (final12 m c)]
  rfl

theorem end_v23 (c : Dev nD) : Wend m c main_v23 = meanOf (lossK m c) := by
  unfold lossK
  show StableHlo.after hostOps1 _ (Proc.devRef .tc main_v23) = _
  after_results
  rw [Pipeline.withArrays_of_ne (cfgs 0).spec c (V0 m c) _ main_v4 (fun w => by fin_cases w <;> decide),
    Pipeline.withArrays_of_ne (cfgs 0).spec c (V0 m c) _ main_v9 (fun w => by fin_cases w <;> decide)]
  rw [show Pipeline.withArrays (cfgs 0).spec c (V0 m c) (fun w => (dats m 0 c).arrAt w (cfgs 0).N) (Proc.tc.devRef main_v12) = G12 m c from
    (withArrays_out (dats m) c (V0 m c)).trans (final12 m c)]
  rfl

/-- The matrix of normalized rows before the change of format: the two normalized inputs one above the other. -/
abbrev Xf (c : Dev nD) : Cert.Spec.Rows := V m c main_v10

set_option maxHeartbeats 4000000 in
/-- The region reads that matrix: a change of float format is the identity on the extended reals. -/
theorem Xk_eq (c : Dev nD) : Xk m c = Xf m c := by
  dsimp only [Xk, Xf, V, V0, pre]
  simp only [hostOps0, hostOps0_1, hostOps0_2, hostOps0_3, List.flatten_cons, List.flatten_nil, List.append_nil, List.cons_append, List.nil_append]
  after_results
  rfl

set_option maxHeartbeats 4000000 in
theorem Xf_eq (c : Dev nD) : Xf m c = concatenate S8192x1024 0 [⟨S4096x1024, V m c main_v4⟩, ⟨S4096x1024, V m c main_v9⟩] concatenates_S4096x1024_S4096x1024_S8192x1024_d0 := by
  dsimp only [Xf, V, V0, pre]
  simp only [hostOps0, hostOps0_1, hostOps0_2, hostOps0_3, List.flatten_cons, List.flatten_nil, List.append_nil, List.cons_append, List.nil_append]
  after_results

/-- Row r's partial loss is the specification's, of the matrix of normalized rows. -/
theorem lossK_apply (c : Dev nD) (r : Fin 8192) : lossK m c (ix1 r) = Cert.Spec.lossPartial (Xf m c) r :=
  lossOf_apply (G12 m c) (V m c main_v4) (V m c main_v9) (Xf m c) (Xf_eq m c) (fun r => by rw [G12_apply, Xk_eq]) r

/-- THE RUN, read at the buffers the claims name: every weakly fair execution of @main terminates with the three results
    at the partial losses and their mean, and the arguments unchanged. -/
theorem run_value : θ_run defs (onTc (τ := τ) (main (F := Ideal))) ⟨m, fun _ => 0, ρ⟩ (fun r => ∀ c : Dev nD,
      r.2.mem ((c.tc : Thread nD τ).loc main_v25) = meanOf (lossK m c)
      ∧ r.2.mem ((c.tc : Thread nD τ).loc main_v21) = lossK m c
      ∧ r.2.mem ((c.tc : Thread nD τ).loc main_v23) = meanOf (lossK m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v25 (Pipeline.mem_restRefs_of _ rfl (fun w => by fin_cases w <;> decide))).trans (end_v25 m c),
     ((h c).2 main_v21 (Pipeline.mem_restRefs_of _ rfl (fun w => by fin_cases w <;> decide))).trans (end_v21 m c),
     ((h c).2 main_v23 (Pipeline.mem_restRefs_of _ rfl (fun w => by fin_cases w <;> decide))).trans (end_v23 m c),
     ((h c).2 main_arg0 (Pipeline.mem_restRefs_of _ rfl (fun w => by fin_cases w <;> decide))).trans (end_arg0 m c),
     ((h c).2 main_arg1 (Pipeline.mem_restRefs_of _ rfl (fun w => by fin_cases w <;> decide))).trans (end_arg1 m c)⟩)
    (run_main m ρ)

end Cert.KernelIdeal.Frame

end
-- ==== Proof.RefValue.lean ====
/-
  The reference's partial losses, row by row: on the extended reals they are the specification's function of the matrix of
  normalized rows the reference builds (its concatenation of the two normalized inputs).

  The similarity matrix is the plain product of that matrix with its transpose; the two gathered diagonals read it at
  (r, r + 4096) and (r + 4096, r); the mask 1 - [r = c] multiplies exp(sim / (1/2)); the row sums, the logarithm, the quotient by
  1/2 and the negation are the specification's.
-/
import proofs.«153312_j70085276336663_1_alg».proof.Proof.Gen.ReferenceIdeal.Read
import proofs.«153312_j70085276336663_1_alg».proof.Proof.LibPlainDot
import proofs.«153312_j70085276336663_1_alg».proof.Proof.Spec
import Idealize.ShloMosaic.Lib.Pipeline.Value
import Idealize.ShloMosaic.Lib.ValueLayout
import Idealize.ShloMosaic.Lib.ValueIdx
import Idealize.ShloMosaic.PureOps.Ideal.Laws
import Idealize.ShloMosaic.Lib.StableHlo.Predicate

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-! ## Words: the index vectors' entries and the diagonal's indicator -/

/-- A select on "this small non-negative word is negative" never fires. -/
private theorem select_neg_small (a x y : BitVec 32) (ha : a.toNat < 2 ^ 31) :
    Scalar.select (IntOp.cmpi .slt a 0#32) x y = y := by
  have h : ¬ IntOp.cmpi .slt a 0#32 = 1#1 := by
    rw [StableHlo.Predicate.slt_iff_toNat ha (by decide)]
    exact Nat.not_lt_zero _
  rw [eq_zero_of_ne_one h]
  exact select_zero _ _

private theorem toNat_ofNat_small (n : Nat) (hn : n < 2 ^ 32) : (BitVec.ofNat 32 n).toNat = n := by
  rw [BitVec.toNat_ofNat]; exact Nat.mod_eq_of_lt hn

/-- The wrapped index i: i itself. -/
private theorem word_lo (n : Nat) (hn : n < 4096) :
    Scalar.select (IntOp.cmpi .slt (BitVec.ofNat 32 n) 0#32) (IntOp.addi (BitVec.ofNat 32 n) 8192#32) (BitVec.ofNat 32 n)
      = BitVec.ofNat 32 n :=
  select_neg_small _ _ _ (by rw [toNat_ofNat_small n (by omega)]; omega)

/-- The wrapped index 4096 + i: 4096 + i itself. -/
private theorem word_hi (n : Nat) (hn : n < 4096) :
    Scalar.select (IntOp.cmpi .slt (IntOp.addi 4096#32 (BitVec.ofNat 32 n)) 0#32)
        (IntOp.addi (IntOp.addi 4096#32 (BitVec.ofNat 32 n)) 8192#32) (IntOp.addi 4096#32 (BitVec.ofNat 32 n))
      = BitVec.ofNat 32 (4096 + n) := by
  have e : IntOp.addi 4096#32 (BitVec.ofNat 32 n) = BitVec.ofNat 32 (4096 + n) := (BitVec.ofNat_add 4096 n).symm
  rw [e]
  exact select_neg_small _ _ _ (by rw [toNat_ofNat_small _ (by omega)]; omega)

/-- A word below 8192, read signed and clamped into the matrix, is its value. -/
private theorem clamp_small (m : Nat) (hm : m < 8192) : min (BitVec.ofNat 32 m).toInt.toNat 8191 = m := by
  rw [StableHlo.Predicate.toInt_ofNat_small m (by omega), Int.toNat_natCast]
  omega

/-- Two row numbers, as words, are equal exactly when they are. -/
private theorem word_eq_iff (r c : Fin 8192) :
    IntOp.cmpi .eq (IntOp.addi (BitVec.ofNat 32 r.val) 0#32) (BitVec.ofNat 32 c.val) = 1#1 ↔ r = c := by
  rw [StableHlo.Predicate.cmpi_eq_iff]
  unfold IntOp.addi
  rw [BitVec.add_zero]
  constructor
  · intro h
    have := congrArg BitVec.toNat h
    rw [toNat_ofNat_small _ (by omega), toNat_ofNat_small _ (by omega)] at this
    exact Fin.ext this
  · intro h; rw [h]

/-- The diagonal's indicator as an extended real. -/
private theorem indicator_eq (r c : Fin 8192) :
    FloatOps.uitofp (F := Ideal) .f32 (IntOp.cmpi .eq (IntOp.addi (BitVec.ofNat 32 r.val) 0#32) (BitVec.ofNat 32 c.val))
      = if r = c then (1 : EReal) else 0 := by
  by_cases h : r = c
  · rw [if_pos h, (word_eq_iff r c).mpr h]
    show (((1#1 : BitVec 1).toNat : ℝ) : EReal) = 1
    simp
  · rw [if_neg h, eq_zero_of_ne_one (fun e => h ((word_eq_iff r c).mp e))]
    show (((0#1 : BitVec 1).toNat : ℝ) : EReal) = 0
    simp

/-! ## The gather of single entries at a list of index pairs -/

/-- The start of the one-entry slice on the rows' axis: the pair's first component, read signed and clamped. -/
private theorem gather_start0 (idx : IVec S4096x2 32) (i : Fin 4096) :
    gather_S8192x8192_S4096x2_S4096_n_01_n_n_01_1_11.start (ix1 i) idx (0 : Fin 2)
      = min (idx (ix2 i (0 : Fin 2))).toInt.toNat 8191 := by
  unfold GatherDims.start
  rw [dif_pos (show (0 : Fin 2) ∈ gather_S8192x8192_S4096x2_S4096_n_01_n_n_01_1_11.startIndexMap by decide)]
  have hsi : gather_S8192x8192_S4096x2_S4096_n_01_n_n_01_1_11.siIdx (ix1 i)
      ⟨List.idxOf (0 : Fin 2) gather_S8192x8192_S4096x2_S4096_n_01_n_n_01_1_11.startIndexMap,
        List.idxOf_lt_length_iff.2 (by decide)⟩ = ix2 i (0 : Fin 2) := by
    funext b; refine Fin.ext ?_
    match b with
    | ⟨0, _⟩ => rfl
    | ⟨1, _⟩ => rfl
  rw [hsi]
  rfl

/-- The start of the one-entry slice on the columns' axis: the pair's second component, read signed and clamped. -/
private theorem gather_start1 (idx : IVec S4096x2 32) (i : Fin 4096) :
    gather_S8192x8192_S4096x2_S4096_n_01_n_n_01_1_11.start (ix1 i) idx (1 : Fin 2)
      = min (idx (ix2 i (1 : Fin 2))).toInt.toNat 8191 := by
  unfold GatherDims.start
  rw [dif_pos (show (1 : Fin 2) ∈ gather_S8192x8192_S4096x2_S4096_n_01_n_n_01_1_11.startIndexMap by decide)]
  have hsi : gather_S8192x8192_S4096x2_S4096_n_01_n_n_01_1_11.siIdx (ix1 i)
      ⟨List.idxOf (1 : Fin 2) gather_S8192x8192_S4096x2_S4096_n_01_n_n_01_1_11.startIndexMap,
        List.idxOf_lt_length_iff.2 (by decide)⟩ = ix2 i (1 : Fin 2) := by
    funext b; refine Fin.ext ?_
    match b with
    | ⟨0, _⟩ => rfl
    | ⟨1, _⟩ => rfl
  rw [hsi]
  rfl

/-- The gather of single entries of a square matrix at a list of index pairs, read at position i: the entry at the pair's
    two components, each read signed and clamped into the matrix. -/
private theorem gather_pair_apply {α : Type} (x : S8192x8192.Idx → α) (idx : IVec S4096x2 32) (i : Fin 4096) :
    Host.gather gather_S8192x8192_S4096x2_S4096_n_01_n_n_01_1_11 x idx (ix1 i)
      = x (ix2 (⟨min (idx (ix2 i (0 : Fin 2))).toInt.toNat 8191, by omega⟩ : Fin 8192)
              (⟨min (idx (ix2 i (1 : Fin 2))).toInt.toNat 8191, by omega⟩ : Fin 8192)) := by
  unfold Host.gather
  congr 1
  funext a
  refine Fin.ext ?_
  show gather_S8192x8192_S4096x2_S4096_n_01_n_n_01_1_11.start (ix1 i) idx a
      + gather_S8192x8192_S4096x2_S4096_n_01_n_n_01_1_11.batchCoord (ix1 i) a
      + gather_S8192x8192_S4096x2_S4096_n_01_n_n_01_1_11.offCoord (ix1 i) a = _
  rw [GatherDims.batchCoord_eq_zero _ _ _ List.not_mem_nil]
  match a with
  | ⟨0, _⟩ =>
    show gather_S8192x8192_S4096x2_S4096_n_01_n_n_01_1_11.start (ix1 i) idx (0 : Fin 2) + 0
      + gather_S8192x8192_S4096x2_S4096_n_01_n_n_01_1_11.offCoord (ix1 i) (0 : Fin 2) = _
    rw [GatherDims.offCoord_eq_zero gather_S8192x8192_S4096x2_S4096_n_01_n_n_01_1_11 (ix1 i) (0 : Fin 2)
      (fun h => ((GatherDims.mem_sKept gather_S8192x8192_S4096x2_S4096_n_01_n_n_01_1_11 (0 : Fin 2)).mp h).1 (by decide))]
    exact gather_start0 idx i
  | ⟨1, _⟩ =>
    show gather_S8192x8192_S4096x2_S4096_n_01_n_n_01_1_11.start (ix1 i) idx (1 : Fin 2) + 0
      + gather_S8192x8192_S4096x2_S4096_n_01_n_n_01_1_11.offCoord (ix1 i) (1 : Fin 2) = _
    rw [GatherDims.offCoord_eq_zero gather_S8192x8192_S4096x2_S4096_n_01_n_n_01_1_11 (ix1 i) (1 : Fin 2)
      (fun h => ((GatherDims.mem_sKept gather_S8192x8192_S4096x2_S4096_n_01_n_n_01_1_11 (1 : Fin 2)).mp h).1 (by decide))]
    exact gather_start1 idx i

/-- The same, once the pair at position i is known to be the pair of words (p, q) of two row numbers. -/
private theorem gather_pair_eq {α : Type} (x : S8192x8192.Idx → α) (idx : IVec S4096x2 32) (i : Fin 4096) (p q : Fin 8192)
    (hp : idx (ix2 i (0 : Fin 2)) = BitVec.ofNat 32 p.val) (hq : idx (ix2 i (1 : Fin 2)) = BitVec.ofNat 32 q.val) :
    Host.gather gather_S8192x8192_S4096x2_S4096_n_01_n_n_01_1_11 x idx (ix1 i) = x (ix2 p q) := by
  rw [gather_pair_apply]
  refine congrArg x (funext fun a => Fin.ext ?_)
  match a with
  | ⟨0, _⟩ =>
    show min (idx (ix2 i (0 : Fin 2))).toInt.toNat 8191 = p.val
    rw [hp]; exact clamp_small _ p.isLt
  | ⟨1, _⟩ =>
    show min (idx (ix2 i (1 : Fin 2))).toInt.toNat 8191 = q.val
    rw [hq]; exact clamp_small _ q.isLt

/-! ## The joins read at an index -/

/-- The list of index pairs, joined from its two columns: a pair's first component is the first column's entry. -/
private theorem pairs_apply0 {α : Type} (a b : S4096x1.Idx → α) (i : Fin 4096) :
    concatenate S4096x2 1 [⟨S4096x1, a⟩, ⟨S4096x1, b⟩] concatenates_S4096x1_S4096x1_S4096x2_d1 (ix2 i (0 : Fin 2))
      = a (ix2 i (0 : Fin 1)) :=
  concatenate_pair_apply_left (1 : Fin 2) a b concatenates_S4096x1_S4096x1_S4096x2_d1 (ix2 i (0 : Fin 2)) rfl
    (ix2 i (0 : Fin 1)) (fun c => match c with
      | ⟨0, _⟩ => rfl
      | ⟨1, _⟩ => rfl)

/-- … and its second component the second column's. -/
private theorem pairs_apply1 {α : Type} (a b : S4096x1.Idx → α) (i : Fin 4096) :
    concatenate S4096x2 1 [⟨S4096x1, a⟩, ⟨S4096x1, b⟩] concatenates_S4096x1_S4096x1_S4096x2_d1 (ix2 i (1 : Fin 2))
      = b (ix2 i (0 : Fin 1)) :=
  concatenate_pair_apply_right (1 : Fin 2) a b concatenates_S4096x1_S4096x1_S4096x2_d1 (ix2 i (1 : Fin 2)) rfl rfl
    (ix2 i (0 : Fin 1)) (fun c => match c with
      | ⟨0, _⟩ => fun _ => rfl
      | ⟨1, _⟩ => fun h => absurd rfl h) rfl

/-- Two vectors of 4096 entries joined end to end, read in the first half … -/
private theorem halves_apply_lo {α : Type} (a b : S4096.Idx → α) (r : Fin 8192) (hr : r.val < 4096) :
    concatenate S8192 0 [⟨S4096, a⟩, ⟨S4096, b⟩] concatenates_S4096_S4096_S8192_d0 (ix1 r)
      = a (ix1 (⟨r.val, hr⟩ : Fin 4096)) :=
  concatenate_pair_apply_left (0 : Fin 1) a b concatenates_S4096_S4096_S8192_d0 (ix1 r) rfl
    (ix1 (⟨r.val, hr⟩ : Fin 4096)) (fun c => match c with
      | ⟨0, _⟩ => rfl)

/-- … and in the second. -/
private theorem halves_apply_hi {α : Type} (a b : S4096.Idx → α) (r : Fin 8192) (hr : 4096 ≤ r.val) :
    concatenate S8192 0 [⟨S4096, a⟩, ⟨S4096, b⟩] concatenates_S4096_S4096_S8192_d0 (ix1 r)
      = b (ix1 (⟨r.val - 4096, by omega⟩ : Fin 4096)) :=
  concatenate_pair_apply_right (0 : Fin 1) a b concatenates_S4096_S4096_S8192_d0 (ix1 r) rfl rfl
    (ix1 (⟨r.val - 4096, by omega⟩ : Fin 4096)) (fun c => match c with
      | ⟨0, _⟩ => fun h => absurd rfl h) (by show r.val - 4096 + 4096 = r.val; omega)

/-! ## The stages -/

/-- The similarity matrix the reference builds: the product of the matrix of normalized rows with its transpose. -/
private theorem sim_apply (x0 x1 : (⟨S4096x1024, .f32⟩ : BufTy).Contents (Elt Ideal)) (r c : Fin 8192) :
    val_main_v12 x0 x1 (ix2 r c) = Cert.Spec.sim (val_main_v10 x0 x1) r c := by
  rw [val_main_v12_apply]
  unfold Cert.Spec.sim
  refine Finset.sum_congr rfl fun k _ => ?_
  rw [val_main_v11_apply]
  have e1 : lidx_main_v12 (ix2 r c) k = ix2 r k := funext fun a => by
    match a with
    | ⟨0, _⟩ => rfl
    | ⟨1, _⟩ => rfl
  have e2 : idx_main_v11 (ridx_main_v12 (ix2 r c) k) = ix2 c k := funext fun a => by
    match a with
    | ⟨0, _⟩ => rfl
    | ⟨1, _⟩ => rfl
  rw [e1, e2]

/-- The mask: one off the diagonal, one less one on it. -/
private theorem mask_apply (r c : Fin 8192) :
    val_main_v23 (F := Ideal) (ix2 r c) = Cert.Spec.one - (if r = c then (1 : EReal) else 0) := by
  rw [val_main_v23_apply, val_main_v22_apply, val_main_cst_1_apply, val_main_v21_apply, val_main_v20_apply,
    val_main_v19_apply, val_main_v16_apply, val_main_v17_apply, val_main_v18_apply, val_main_c_apply]
  exact congrArg (Cert.Spec.one - ·) (indicator_eq r c)

/-- One masked exponential: the specification's term. -/
private theorem term_apply (x0 x1 : (⟨S4096x1024, .f32⟩ : BufTy).Contents (Elt Ideal)) (r c : Fin 8192) :
    val_main_v27 x0 x1 (ix2 r c) = Cert.Spec.term (val_main_v10 x0 x1) r c := by
  rw [val_main_v27_apply, val_main_v26_apply, val_main_v25_apply, val_main_v24_apply, val_main_cst_2_apply, mask_apply,
    sim_apply]
  exact Cert.Spec.term_masked _ r c

/-- A row's sum of masked exponentials: the specification's denominator. -/
private theorem den_apply (x0 x1 : (⟨S4096x1024, .f32⟩ : BufTy).Contents (Elt Ideal)) (r : Fin 8192) :
    val_main_v28 x0 x1 (ix1 r) = Cert.Spec.den (val_main_v10 x0 x1) r := by
  rw [val_main_v28_apply, val_main_cst_3_apply]
  unfold Cert.Spec.den
  show Ideal.ofBits .f32 0x00000000#32 + _ = _
  rw [Cert.Spec.zero_eq, zero_add]
  refine Finset.sum_congr rfl fun k _ => ?_
  have e : idx_main_v28 (ix1 r) k = ix2 r k := funext fun a => by
    match a with
    | ⟨0, _⟩ => rfl
    | ⟨1, _⟩ => rfl
  rw [e, term_apply]

/-- The first gathered diagonal: the similarity of row i with row 4096 + i. -/
private theorem diag_lo (x0 x1 : (⟨S4096x1024, .f32⟩ : BufTy).Contents (Elt Ideal)) (i : Fin 4096) :
    val_main_v13 x0 x1 (ix1 i)
      = Cert.Spec.sim (val_main_v10 x0 x1) (⟨i.val, by omega⟩ : Fin 8192) (⟨4096 + i.val, by omega⟩ : Fin 8192) := by
  have h0 : val_main_call2_v16 (F := Ideal) (ix2 i (0 : Fin 2)) = BitVec.ofNat 32 i.val := by
    unfold val_main_call2_v16
    rw [pairs_apply0, val_main_call2_v14_apply, val_main_call2_v8_apply, val_main_call2_v5_apply, val_main_call2_v7_apply,
      val_main_call2_v0_apply, val_main_call2_v4_apply, val_main_call2_c_0_apply, val_main_call2_v6_apply,
      val_main_call2_c_1_apply]
    exact word_lo i.val i.isLt
  have h1 : val_main_call2_v16 (F := Ideal) (ix2 i (1 : Fin 2)) = BitVec.ofNat 32 (4096 + i.val) := by
    unfold val_main_call2_v16
    rw [pairs_apply1, val_main_call2_v15_apply, val_main_call2_v13_apply, val_main_call2_v10_apply, val_main_call2_v12_apply,
      val_main_call2_v3_apply, val_main_call2_v2_apply, val_main_call2_c_apply, val_main_call2_v1_apply,
      val_main_call2_v9_apply, val_main_call2_c_2_apply, val_main_call2_v11_apply, val_main_call2_c_3_apply]
    exact word_hi i.val i.isLt
  unfold val_main_v13
  rw [gather_pair_eq _ _ i (⟨i.val, by omega⟩ : Fin 8192) (⟨4096 + i.val, by omega⟩ : Fin 8192) h0 h1]
  exact sim_apply x0 x1 _ _

/-- The second gathered diagonal: the similarity of row 4096 + i with row i. -/
private theorem diag_hi (x0 x1 : (⟨S4096x1024, .f32⟩ : BufTy).Contents (Elt Ideal)) (i : Fin 4096) :
    val_main_v14 x0 x1 (ix1 i)
      = Cert.Spec.sim (val_main_v10 x0 x1) (⟨4096 + i.val, by omega⟩ : Fin 8192) (⟨i.val, by omega⟩ : Fin 8192) := by
  have h0 : val_main_call3_v16 (F := Ideal) (ix2 i (0 : Fin 2)) = BitVec.ofNat 32 (4096 + i.val) := by
    unfold val_main_call3_v16
    rw [pairs_apply0, val_main_call3_v14_apply, val_main_call3_v8_apply, val_main_call3_v5_apply, val_main_call3_v7_apply,
      val_main_call3_v3_apply, val_main_call3_v2_apply, val_main_call3_c_apply, val_main_call3_v1_apply,
      val_main_call3_v4_apply, val_main_call3_c_0_apply, val_main_call3_v6_apply, val_main_call3_c_1_apply]
    exact word_hi i.val i.isLt
  have h1 : val_main_call3_v16 (F := Ideal) (ix2 i (1 : Fin 2)) = BitVec.ofNat 32 i.val := by
    unfold val_main_call3_v16
    rw [pairs_apply1, val_main_call3_v15_apply, val_main_call3_v13_apply, val_main_call3_v10_apply, val_main_call3_v12_apply,
      val_main_call3_v0_apply, val_main_call3_v9_apply, val_main_call3_c_2_apply, val_main_call3_v11_apply,
      val_main_call3_c_3_apply]
    exact word_lo i.val i.isLt
  unfold val_main_v14
  rw [gather_pair_eq _ _ i (⟨4096 + i.val, by omega⟩ : Fin 8192) (⟨i.val, by omega⟩ : Fin 8192) h0 h1]
  exact sim_apply x0 x1 _ _

/-- The joined diagonals: row r's similarity with its partner. -/
private theorem pos_apply (x0 x1 : (⟨S4096x1024, .f32⟩ : BufTy).Contents (Elt Ideal)) (r : Fin 8192) :
    val_main_v15 x0 x1 (ix1 r) = Cert.Spec.pos (val_main_v10 x0 x1) r := by
  have hpos : Cert.Spec.pos (val_main_v10 x0 x1) r
      = Cert.Spec.sim (val_main_v10 x0 x1) (Cert.Spec.rowLo r) (Cert.Spec.rowHi r) := rfl
  rw [hpos]
  unfold val_main_v15
  by_cases hr : r.val < 4096
  · rw [halves_apply_lo _ _ r hr, diag_lo]
    have elo : (⟨r.val, by omega⟩ : Fin 8192) = Cert.Spec.rowLo r := Fin.ext (by
      show r.val = r.val % 4096
      omega)
    have ehi : (⟨4096 + r.val, by omega⟩ : Fin 8192) = Cert.Spec.rowHi r := Fin.ext (by
      show 4096 + r.val = r.val % 4096 + 4096
      omega)
    rw [← elo, ← ehi]
  · have hr' : 4096 ≤ r.val := by omega
    rw [halves_apply_hi _ _ r hr', diag_hi, Cert.Spec.sim_comm]
    have elo : (⟨r.val - 4096, by omega⟩ : Fin 8192) = Cert.Spec.rowLo r := Fin.ext (by
      show r.val - 4096 = r.val % 4096
      omega)
    have ehi : (⟨4096 + (r.val - 4096), by omega⟩ : Fin 8192) = Cert.Spec.rowHi r := Fin.ext (by
      show 4096 + (r.val - 4096) = r.val % 4096 + 4096
      omega)
    rw [← elo, ← ehi]

/-- Row r's partial loss as the reference computes it is the specification's, of the reference's matrix of normalized rows. -/
theorem lossPartial_eq (x0 x1 : (⟨S4096x1024, .f32⟩ : BufTy).Contents (Elt Ideal)) (r : Fin 8192) :
    val_main_v33 x0 x1 (ix1 r) = Cert.Spec.lossPartial (val_main_v10 x0 x1) r := by
  rw [val_main_v33_apply, val_main_v32_apply, val_main_v30_apply, val_main_v31_apply, val_main_v29_apply,
    val_main_cst_4_apply, pos_apply, den_apply]
  rfl

end Cert.ReferenceIdeal.RefValue

end
-- ==== Proof.lean ====
/-
  The certificate: a contrastive-loss kernel against its plain reference, equal over the extended reals.

  Both programs normalize the two inputs row by row and stack them into one 8192 x 1024 matrix X. The reference forms the
  whole similarity matrix X Xᵀ, masks its diagonal by the factor 1 - [r = c], sums exp(sim / (1/2)) along each row, and reads
  the similarity of each matching pair off the two diagonals at distance 4096. The kernel's region walks the similarity
  matrix block by block (8 x 8 blocks of 1024 x 1024), keeps each row's running sum of exp(2 sim) with the diagonal entry
  replaced by 0 in a scratch column, and writes the column out at the last column block; the matching pairs' similarities
  are row-wise products summed on the host. On the extended reals the two are one function of X: a sum over 8192 columns is
  the sum of its eight blocks, (1 - [r = c]) e is e off the diagonal and 0 on it, a quotient by 1/2 is a product by 2, and the
  two diagonals hold <X_r, X_{r+4096}> in either order. The partial losses, and with them their two means, agree.

  The three frames: the reference's is its run with the results dropped; the kernel's, at either instance, is the run of the
  one region (its two input windows read one array, lent to them in halves) with the host lines around it.
-/
import proofs.«153312_j70085276336663_1_alg».proof.Defs
import proofs.«153312_j70085276336663_1_alg».proof.Proof.Gen.Kernel
import proofs.«153312_j70085276336663_1_alg».proof.Proof.Gen.KernelIdeal
import proofs.«153312_j70085276336663_1_alg».proof.Proof.Gen.ReferenceIdeal
import proofs.«153312_j70085276336663_1_alg».proof.Proof.Gen.Pre_finite_inputs
import proofs.«153312_j70085276336663_1_alg».proof.Proof.Gen.ReferenceIdeal.Run
import proofs.«153312_j70085276336663_1_alg».proof.Proof.Gen.ReferenceIdeal.Read
import proofs.«153312_j70085276336663_1_alg».proof.Proof.K.FrameClaim
import proofs.«153312_j70085276336663_1_alg».proof.Proof.KI.Tail
import proofs.«153312_j70085276336663_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The two programs build one matrix of normalized rows -/

set_option maxHeartbeats 4000000 in
/-- The first normalized input, as the kernel's host lines and as the reference's build it: the same operations. -/
theorem norm0_eq (m : (ℓ : Loc Cert.KernelIdeal.nD Cert.KernelIdeal.τ Cert.KernelIdeal.sig) → Buf (Elt Ideal) ℓ) (c : Dev Cert.KernelIdeal.nD) :
    Cert.KernelIdeal.Frame.V m c Cert.KernelIdeal.main_v4
      = Cert.ReferenceIdeal.Read.val_main_v4 (F := Ideal) (m ((c.tc : Thread Cert.KernelIdeal.nD Cert.KernelIdeal.τ).loc Cert.KernelIdeal.main_arg0)) := by
  dsimp only [Cert.KernelIdeal.Frame.V, Cert.KernelIdeal.Frame.V0, Cert.KernelIdeal.Frame.pre]
  simp only [Cert.KernelIdeal.Gen.hostOps0, Cert.KernelIdeal.Gen.hostOps0_1, Cert.KernelIdeal.Gen.hostOps0_2, Cert.KernelIdeal.Gen.hostOps0_3, List.flatten_cons, List.flatten_nil, List.append_nil, List.cons_append, List.nil_append]
  after_results
  rfl

set_option maxHeartbeats 4000000 in
theorem norm1_eq (m : (ℓ : Loc Cert.KernelIdeal.nD Cert.KernelIdeal.τ Cert.KernelIdeal.sig) → Buf (Elt Ideal) ℓ) (c : Dev Cert.KernelIdeal.nD) :
    Cert.KernelIdeal.Frame.V m c Cert.KernelIdeal.main_v9
      = Cert.ReferenceIdeal.Read.val_main_v9 (F := Ideal) (m ((c.tc : Thread Cert.KernelIdeal.nD Cert.KernelIdeal.τ).loc Cert.KernelIdeal.main_arg1)) := by
  dsimp only [Cert.KernelIdeal.Frame.V, Cert.KernelIdeal.Frame.V0, Cert.KernelIdeal.Frame.pre]
  simp only [Cert.KernelIdeal.Gen.hostOps0, Cert.KernelIdeal.Gen.hostOps0_1, Cert.KernelIdeal.Gen.hostOps0_2, Cert.KernelIdeal.Gen.hostOps0_3, List.flatten_cons, List.flatten_nil, List.append_nil, List.cons_append, List.nil_append]
  after_results
  rfl

/-- The kernel's matrix of normalized rows is the reference's, of the same two arguments. -/
theorem rows_eq (m : (ℓ : Loc Cert.KernelIdeal.nD Cert.KernelIdeal.τ Cert.KernelIdeal.sig) → Buf (Elt Ideal) ℓ) (c : Dev Cert.KernelIdeal.nD) :
    Cert.KernelIdeal.Frame.Xf m c
      = Cert.ReferenceIdeal.Read.val_main_v10 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  rw [Cert.KernelIdeal.Frame.Xf_eq, norm0_eq, norm1_eq]
  rfl

/-! ## The partial losses agree -/

/-- The kernel's partial losses are the reference's stage of the same two arguments. -/
theorem loss_eq (m : (ℓ : Loc Cert.KernelIdeal.nD Cert.KernelIdeal.τ Cert.KernelIdeal.sig) → Buf (Elt Ideal) ℓ) (c : Dev Cert.KernelIdeal.nD) :
    Cert.KernelIdeal.Frame.lossK m c
      = Cert.ReferenceIdeal.Read.val_main_v33 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext y
  obtain ⟨r, rfl⟩ : ∃ r : Fin 8192, y = ix1 r := ⟨y 0, eq_ix1 y⟩
  rw [Cert.KernelIdeal.Frame.lossK_apply, Cert.ReferenceIdeal.RefValue.lossPartial_eq, rows_eq]

/-- The mean the kernel's host lines take is the reference's. -/
theorem mean_eq (x0 x1 : (⟨Cert.ReferenceIdeal.S4096x1024, .f32⟩ : BufTy).Contents (Elt Ideal)) :
    Cert.KernelIdeal.Frame.meanOf (Cert.ReferenceIdeal.Read.val_main_v33 (F := Ideal) x0 x1) = Cert.ReferenceIdeal.Read.val_main_v37 (F := Ideal) x0 x1 := rfl

theorem mean_eq' (x0 x1 : (⟨Cert.ReferenceIdeal.S4096x1024, .f32⟩ : BufTy).Contents (Elt Ideal)) :
    Cert.KernelIdeal.Frame.meanOf (Cert.ReferenceIdeal.Read.val_main_v33 (F := Ideal) x0 x1) = Cert.ReferenceIdeal.Read.val_main_v35 (F := Ideal) x0 x1 := rfl

/-! ## The claims -/

theorem frame_k : Cert.frame_Kernel (hKernel := Cert.Kernel.Gen.facts) (hPre_finite_inputs := Cert.Pre_finite_inputs.Gen.facts) :=
  fun m ρ _ => Cert.Kernel.Frame.frame m ρ

theorem frame_ki : Cert.frame_KernelIdeal (hKernelIdeal := Cert.KernelIdeal.Gen.facts) (hPre_finite_inputs := Cert.Pre_finite_inputs.Gen.facts) :=
  fun m ρ _ => Cert.KernelIdeal.Frame.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- From memories agreeing on the arguments both programs end with the same three results: the partial losses by
    `loss_eq`, the two means as one function of them. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Frame.meanOf (Cert.KernelIdeal.Frame.lossK m c), fun c => Cert.KernelIdeal.Frame.lossK m c,
    fun c => Cert.KernelIdeal.Frame.meanOf (Cert.KernelIdeal.Frame.lossK m c), Cert.KernelIdeal.Frame.run_value m ρ, ?_⟩
  refine (θ_run Cert.ReferenceIdeal.defs _ _).mono (fun _ h c => ⟨(h c).1.trans ?_, (h c).2.1.trans ?_, (h c).2.2.1.trans ?_, (h c).2.2.2.1, (h c).2.2.2.2⟩)
    (Cert.ReferenceIdeal.Value.run (F := Ideal) m' ρ')
  · rw [Cert.ReferenceIdeal.Read.val_main_v37_eq, (hagree c).1, (hagree c).2]
    exact (mean_eq _ _).symm.trans (congrArg Cert.KernelIdeal.Frame.meanOf (loss_eq m c).symm)
  · rw [Cert.ReferenceIdeal.Read.val_main_v33_eq, (hagree c).1, (hagree c).2]
    exact (loss_eq m c).symm
  · rw [Cert.ReferenceIdeal.Read.val_main_v35_eq, (hagree c).1, (hagree c).2]
    exact (mean_eq' _ _).symm.trans (congrArg Cert.KernelIdeal.Frame.meanOf (loss_eq m c).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
